-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1000 : S_.BroadcastsInDim S4096x1000 (![] : Fin 0 → Fin S4096x1000.rank)
  reducesTo_S4096x1000_S_d0_1 : S4096x1000.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S4096 .f32) (main_arg5 : FVec F S4096x1000 .f32) (main_arg6 : FVec F S1000 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1000 .f32 := Host.absf main_arg5
  let main_cst_8 : FVec F S_ .f32 := constant S_ .f32 0x7F800000#32
  let main_v25 : FVec F S4096x1000 .f32 := broadcastInDim S4096x1000 ![] bcast_S_S4096x1000 main_cst_8
  let main_v26 : IVec S4096x1000 1 := cmpf .olt main_v24 main_v25
  let main_c_9 : IVec S_ 1 := constantI S_ 1 1#1
  let main_v27 : IVec S_ 1 := (fun x v => Host.reduce IntOp.andi x v reducesTo_S4096x1000_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S4096x2048 .f32) (main_arg1 : FVec F S2048x4096 .f32) (main_arg2 : FVec F S4096 .f32) (main_arg3 : FVec F S4096x4096 .f32) (main_arg4 : FVec F S4096 .f32) (main_arg5 : FVec F S4096x1000 .f32) (main_arg6 : FVec F S1000 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S1x1000 : Shape := ⟨2, ![1, 1000]⟩
abbrev S512x1024 : Shape := ⟨2, ![512, 1024]⟩
abbrev S1024x1024 : Shape := ⟨2, ![1024, 1024]⟩
abbrev S1x1024 : Shape := ⟨2, ![1, 1024]⟩
abbrev S1024x1000 : Shape := ⟨2, ![1024, 1000]⟩
abbrev S512x1000 : Shape := ⟨2, ![512, 1000]⟩

abbrev nBuf : Space → Nat
  | .hbm => 13
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S1x4096, .f32⟩
  | .hbm, ⟨8, _⟩ => ⟨S1x4096, .f32⟩
  | .hbm, ⟨9, _⟩ => ⟨S1x1000, .f32⟩
  | .hbm, ⟨10, _⟩ => ⟨S4096x4096, .bf16⟩
  | .hbm, ⟨11, _⟩ => ⟨S4096x4096, .bf16⟩
  | .hbm, ⟨12, _⟩ => ⟨S4096x1000, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1000, .f32⟩
  | .local _ .vmem, ⟨21, _⟩ => ⟨S1024x1000, .f32⟩
  | .local _ .vmem, ⟨22, _⟩ => ⟨S1x1000, .f32⟩
  | .local _ .vmem, ⟨23, _⟩ => ⟨S512x1000, .f32⟩
  | .local _ .vmem, ⟨24, _⟩ => ⟨S512x1000, .f32⟩
  | .local _ .vmem, ⟨25, _⟩ => ⟨S512x1000, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4096_S1x4096 : S4096.ShapeCasts S1x4096
  shapeCasts_S1000_S1x1000 : S1000.ShapeCasts S1x1000
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1024x1000_S1024x1000_0_0 : ∀ a, (![0, 0] : Fin 2 → Nat) a + S1024x1000.size a ≤ S1024x1000.size a
  h_S1024x1000 : 0 < S1024x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  dot_S512x1024_S1024x1024_S512x1024_1_0_0_1_n_n_wf : DotDims.WF S512x1024 S1024x1024 S512x1024 [1] [0] [0] [1] [] []
  dot_S512x1024_S1024x1000_S512x1000_1_0_0_1_n_n_wf : DotDims.WF S512x1024 S1024x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x2048.size a
  hwx0_0 : ∀ i : grid0.Coords, EltTy.bits .f32 = 32 ∨ (Rect.block (s := S4096x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x4096.size a
  hwx0_1 : ∀ i : grid0.Coords, EltTy.bits .f32 = 32 ∨ (Rect.block (s := S2048x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .bf16 = 32 ∨ (Rect.block (s := S4096x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .bf16 = 32 ∨ (Rect.block (s := S4096x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1000.size a ≤ S4096x1000.size a
  hwx2_1 : ∀ i : grid2.Coords, EltTy.bits .f32 = 32 ∨ (Rect.block (s := S4096x1000) S1024x1000.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1000.size a ≤ S1x1000.size a
  hwx2_2 : ∀ i : grid2.Coords, EltTy.bits .f32 = 32 ∨ (Rect.block (s := S1x1000) S1x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1000.size a ≤ S4096x1000.size a
  hwx2_3 : ∀ i : grid2.Coords, EltTy.bits .f32 = 32 ∨ (Rect.block (s := S4096x1000) S512x1000.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1000.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S4096x1000 : Shape := ⟨2, ![4096, 1000]⟩
abbrev S1000 : Shape := ⟨1, ![1000]⟩
abbrev S1x4096 : Shape := ⟨2, ![1, 4096]⟩
abbrev S_ : Shape := ⟨0, ![]⟩
abbrev S1x1000 : Shape := ⟨2, ![1, 1000]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1000, .f32⟩
  | .hbm, ⟨6, _⟩ => ⟨S1000, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1000, .f32⟩
  | .hbm, ⟨22, _⟩ => ⟨S1x1000, .f32⟩
  | .hbm, ⟨23, _⟩ => ⟨S4096x1000, .f32⟩
  | .hbm, ⟨24, _⟩ => ⟨S4096x1000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1000_S4096x1000_1_0_0_1_n_n_wf : DotDims.WF S4096x4096 S4096x1000 S4096x1000 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1000_S4096x1000_1_0_0_1_n_n : DotDims S4096x4096 S4096x1000 S4096x1000 where
  lhsContracting := [1]
  rhsContracting := [0]
  lhsNonContracting := [0]
  rhsNonContracting := [1]
  lhsBatch := []
  rhsBatch := []
  wf := dot_S4096x4096_S4096x1000_S4096x1000_1_0_0_1_n_n_wf

class Facts : Prop extends Facts₀ where

variable [Facts]
-- ==== Proof.K.R0Runs.lean ====
/-
  The body of the first layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.Kernel.Launch
import proofs.«147035_j70592082477120_1_alg».proof.Proof.Gen.Kernel.Skeleton
import proofs.«147035_j70592082477120_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.f32
local notation "SW" => S1024x1024
local notation "SB" => S1x1024
local notation "SO" => S512x1024
local notation "EO" => EltTy.bf16
local notation "SA" => S512x1024

/-! ## Which kind a point is of -/

/-- The kernel's test "contraction tile is the first one", as it computes it from the grid coordinates. -/
abbrev first0 (i : grid0.Coords) : Prop := (Scalar.cmpi .ne (Scalar.extui (Scalar.cmpi .eq (BitVec.ofNat 32 (i 2).val) 0#32)) 0#32) = 1#1
/-- It holds exactly at the points whose position is a multiple of the number of contraction tiles. -/
theorem first0_iff : ∀ t : Fin cfg0.N, first0 (grid0.coords t) ↔ t.val % 2 = 0 :=
  (by decide +kernel : ∀ t : Fin grid0.N, first0 (grid0.coords t) ↔ t.val % 2 = 0)
/-- The kernel's test "contraction tile is the last one". -/
abbrev last0 (i : grid0.Coords) : Prop := k0_cond2 i = 1#1
theorem last0_iff : ∀ t : Fin cfg0.N, last0 (grid0.coords t) ↔ t.val % 2 = 1 :=
  (by decide +kernel : ∀ t : Fin grid0.N, last0 (grid0.coords t) ↔ t.val % 2 = 1)

/-- The offsets of every whole-buffer access are zero. -/
theorem zoff0 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, fun b o E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (y : Shape.Idx SA) :
    ∃ pc ∈ (run0A c i a3 h3 a4 h4 a5 h5 a6 h6 a7 h7 hc0 hc1 x w).1, y ∈ pc.1.set :=
  View.cover_of_tiledL (run0A c i a3 h3 a4 h4 a5 h5 a6 h6 a7 h7 hc0 hc1 x w).1 (Shape.size SA) (by sl_kernel_rfl) y

/-- Read back, they are one step from the zero total: the later store covers the reset, and the total it adds to is
    the reset's value read back. -/
theorem acc0A_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (f : _) :
    a7.view.read (Elt F) (a7.view.writes (Elt F) f (run0A c i a3 h3 a4 h4 a5 h5 a6 h6 a7 h7 hc0 hc1 x w).1)
      = k0_pay2 x w (k0_pay1 (F := F)) := by
  rw [View.read_writes_eq_canon _ _ _ (cover0A c i a3 h3 a4 h4 a5 h5 a6 h6 a7 h7 hc0 hc1 x w)]
  unfold run0A; dsimp only; sl_unfold_words
  rw [View.canon_cons_unit_zero (S := SA) zoff0, View.readCov_unit_zero (S := SA) _ zoff0]
  simp only [View.readAt_eq_ld, h3.read_unread, h4.read_unread, View.ld_unit_zero (S := SX) zoff0, View.ld_unit_zero (S := SA) zoff0, View.ld_unit_zero (S := SW) zoff0]

/-- THE BODY AT A FIRST POINT. -/
theorem body0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k0_pay2 x w (k0_pay1 (F := F)))) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc0A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, fun b o E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) (y : Shape.Idx SA) :
    ∃ pc ∈ (run0B c i a3 h3 a4 h4 a5 h5 a6 h6 a7 h7 hc0 hc1 x w s).1, y ∈ pc.1.set :=
  View.cover_of_tiledL (run0B c i a3 h3 a4 h4 a5 h5 a6 h6 a7 h7 hc0 hc1 x w s).1 (Shape.size SA) (by sl_kernel_rfl) y

/-- Read back: one step from the total the point started from. -/
theorem acc0B_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) (f : _) :
    a7.view.read (Elt F) (a7.view.writes (Elt F) f (run0B c i a3 h3 a4 h4 a5 h5 a6 h6 a7 h7 hc0 hc1 x w s).1)
      = k0_pay2 x w s := by
  rw [View.read_writes_eq_canon _ _ _ (cover0B c i a3 h3 a4 h4 a5 h5 a6 h6 a7 h7 hc0 hc1 x w s)]
  unfold run0B; dsimp only; sl_unfold_words
  rw [View.canon_unit_zero (S := SA) zoff0]
  simp only [View.readAt_eq_ld, h3.read_unread, h4.read_unread, h7.read_unread, View.ld_unit_zero (S := SX) zoff0, View.ld_unit_zero (S := SA) zoff0, View.ld_unit_zero (S := SW) zoff0]

/-- THE BODY AT A MIDDLE POINT. -/
theorem body0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k0_pay2 x w s)) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc0B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run0C (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, ?_, fun E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover0C_out (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (y : Shape.Idx SA) :
    ∃ pc ∈ (run0C c i a3 h3 a4 h4 a5 h5 a6 h6 a7 h7 hc0 hc1 x w b s).1, y ∈ pc.1.set :=
  View.cover_of_tiledL (run0C c i a3 h3 a4 h4 a5 h5 a6 h6 a7 h7 hc0 hc1 x w b s).1 (Shape.size SA) (by sl_kernel_rfl) y

theorem cover0C_acc (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (y : Shape.Idx SA) :
    ∃ pc ∈ (run0C c i a3 h3 a4 h4 a5 h5 a6 h6 a7 h7 hc0 hc1 x w b s).2.1, y ∈ pc.1.set :=
  View.cover_of_tiledL (run0C c i a3 h3 a4 h4 a5 h5 a6 h6 a7 h7 hc0 hc1 x w b s).2.1 (Shape.size SA) (by sl_kernel_rfl) y

/-- Read back, the scratch is one step from the total the point started from. -/
theorem acc0C_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (f : _) :
    a7.view.read (Elt F) (a7.view.writes (Elt F) f (run0C c i a3 h3 a4 h4 a5 h5 a6 h6 a7 h7 hc0 hc1 x w b s).2.1)
      = k0_pay2 x w s := by
  rw [View.read_writes_eq_canon _ _ _ (cover0C_acc c i a3 h3 a4 h4 a5 h5 a6 h6 a7 h7 hc0 hc1 x w b s)]
  unfold run0C; dsimp only; sl_unfold_words
  rw [View.canon_unit_zero (S := SA) zoff0]
  simp only [View.readAt_eq_ld, h3.read_unread, h4.read_unread, h7.read_unread, View.ld_unit_zero (S := SX) zoff0, View.ld_unit_zero (S := SA) zoff0, View.ld_unit_zero (S := SW) zoff0]

/-- Read back, the output block is the finished total: the total it finishes is the one just stored, read back. -/
theorem out0C_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (f : _) :
    a6.view.read (Elt F) (a6.view.writes (Elt F) f (run0C c i a3 h3 a4 h4 a5 h5 a6 h6 a7 h7 hc0 hc1 x w b s).1)
      = k0_pay3 (k0_pay2 x w s) b := by
  rw [View.read_writes_eq_canon _ _ _ (cover0C_out c i a3 h3 a4 h4 a5 h5 a6 h6 a7 h7 hc0 hc1 x w b s)]
  unfold run0C; dsimp only; sl_unfold_words
  rw [View.canon_unit_zero (S := SA) zoff0]
  simp only [View.readCov_unit_zero (S := SA) _ zoff0, View.readAt_eq_ld, h3.read_unread, h4.read_unread, h5.read_unread, h7.read_unread,
    View.ld_unit_zero (S := SX) zoff0, View.ld_unit_zero (S := SA) zoff0, View.ld_unit_zero (S := SW) zoff0, View.ld_unit_zero (S := SB) zoff0]

/-- THE BODY AT A LAST POINT. -/
theorem body0C (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k0_pay3 (k0_pay2 x w s) b) ∗ owns (c : Thread nD τ) a7 fullShare (k0_pay2 x w s)) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out0C_eq c i a3 h3 a4 h4 a5 h5 a6 h6 a7 h7 hc0 hc1 x w b s f6
  unfold owns; iexists _; isplitr
  swap; · iexact H7
  ipureintro; exact acc0C_eq c i a3 h3 a4 h4 a5 h5 a6 h6 a7 h7 hc0 hc1 x w b s f7

end Cert.Kernel.Hand

end
-- ==== Proof.K.R0.lean ====
/-
  The first layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.f32
local notation "SW" => S1024x1024
local notation "SB" => S1x1024
local notation "SO" => S512x1024
local notation "EO" => EltTy.bf16
local notation "SA" => S512x1024

/-! ## The schedule facts the obligation needs -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction tile the output block is idle and is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
/-- At the last contraction tile it is live. -/
theorem live0_3 : ∀ t : Fin cfg0.N, last0 (grid0.coords t) → cfg0.idle 3 (grid0.coords t) = false := by decide +kernel

/-- Each window's current staging memref at point t, as the pipeline passes it to the body, and its wholeness. -/
abbrev ms0_0 (t : Fin cfg0.N) : Memref sig .tc .vmem SX EX := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem SW .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem SB .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem SO EO := win0_3.stage (cfg0.slots t 3)
abbrev hs0_3 (t : Fin cfg0.N) : (ms0_3 t).IsWhole := hstage0_3 ((cfg0.slots t 3).cast nbuf0_3)
/-- The scratch that holds the running total. -/
abbrev scM0 : Memref sig .tc .vmem SA .f32 := Memref.whole cc0_scratch0

/-- The core's scoped buffers other than this call's staging buffers and its scratch, each at some contents. -/
abbrev others0 (c : Dev nD) : sProp 𝕄 :=
  Pipeline.scopedRestBut (Ix := Unit) (Name := ℕ) (U := UR sig nD τ) (Lvl := ℕ) (Val := Elt F) spec0 c [cc0_scratch0]

/-- What the region is handed besides its windows: the scratch at some contents, the other scoped buffers, the
    generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]
  rfl

section
variable (V : (c : Dev nD) → (b : Ref sig .tc) → Buf (Elt F) ((c : Thread nD τ).loc b))

/-! ## The input blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point t under their literal types: the activations' tile, the weights' tile, the bias row's tile. -/
abbrev xb0 (c : Dev nD) (t : Fin cfg0.N) : Vec F SX EX := iblk0 V c 0 t
abbrev wb0 (c : Dev nD) (t : Fin cfg0.N) : Vec F SW .f32 := iblk0 V c 1 t
abbrev bb0 (c : Dev nD) (t : Fin cfg0.N) : Vec F SB .f32 := iblk0 V c 2 t

/-! ## The running total -/

/-- The scratch after point n. -/
def acc0 (c : Dev nD) : (n : ℕ) → n < cfg0.N → Vec F SA .f32
  | 0, h => k0_pay2 (xb0 V c ⟨0, h⟩) (wb0 V c ⟨0, h⟩) (k0_pay1 (F := F))
  | n + 1, h =>
    if (n + 1) % 2 = 0 then k0_pay2 (xb0 V c ⟨n + 1, h⟩) (wb0 V c ⟨n + 1, h⟩) (k0_pay1 (F := F))
    else k0_pay2 (xb0 V c ⟨n + 1, h⟩) (wb0 V c ⟨n + 1, h⟩) (acc0 c n (Nat.lt_of_succ_lt h))

/-- At a first point: one step from zero. -/
theorem acc0_first (c : Dev nD) (t : Fin cfg0.N) (h : t.val % 2 = 0) :
    acc0 V c t.val t.isLt = k0_pay2 (xb0 V c t) (wb0 V c t) (k0_pay1 (F := F)) := by
  obtain ⟨n, hn⟩ := t
  cases n with
  | zero => rfl
  | succ n => exact (if_pos h)

/-- Elsewhere: one step from the point before. -/
theorem acc0_next (c : Dev nD) (t : Fin cfg0.N) (h : ¬t.val % 2 = 0) :
    acc0 V c t.val t.isLt
      = k0_pay2 (xb0 V c t) (wb0 V c t) (acc0 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (bb0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (bb0 V c t) := by dsimp only [dat0]

/-- An input's current staging buffer holds its block at every point, fetched there or not: where it is not fetched
    its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 2 = 0
  · -- a first point: whatever the scratch held, it is reset
    have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (body0A c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (body0A c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first0 (grid0.coords t) := fun h => h0 ((first0_iff t).mp h)
    have hz : t.val ≠ 0 := fun h => h0 (by rw [h])
    rw [acc0_next V c t h0]
    rw [Phi0_castSucc V c t, Phi0_pos V c _ _ hz]
    by_cases h1 : t.val % 2 = 1
    · -- a last point: one more step, then the output block is written
      have hl : last0 (grid0.coords t) := (last0_iff t).mpr h1
      rw [show (dat0 V c).leavesExact 3 t = owns (c : Thread nD τ) (ms0_3 t) fullShare ((dat0 V c).after 3 t) from by
        unfold Dat.leavesExact; rw [live0_3 t hl], after0_3, acc0_next V c t h0]
      iintro ⟨⟨⟨HS, HR⟩, Hg⟩, Ho, ⟨%d0, H0⟩, ⟨%d1, H1⟩, ⟨%d2, H2⟩, ⟨%d3, H3⟩⟩
      iapply (body0C c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last0 (grid0.coords t) := fun h => h1 ((last0_iff t).mp h)
      rw [Dat.leavesExact_idle (dat0 V c) 3 t (idle0_3 t hl) (noFlush0_3 t hl)]
      iintro ⟨⟨⟨HS, HR⟩, Hg⟩, Ho, ⟨%d0, H0⟩, ⟨%d1, H1⟩, ⟨%d2, H2⟩, ⟨%d3, H3⟩⟩
      iapply (body0B c (grid0.coords t) _ _ _ _ _ _ _ _ _ _ hf hl (xb0 V c t) (wb0 V c t) (bb0 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back, the total forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; decide), PhiA0_eq]
  iintro ⟨⟨HS, HR⟩, Hg⟩
  isplitl [HS HR]
  · isplitl [HS]
    · iexists _; iexact HS
    iexact HR
  iexact Hg

end

end Cert.Kernel.Hand

end
-- ==== Proof.K.R1Runs.lean ====
/-
  The body of the second layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.Kernel.Launch
import proofs.«147035_j70592082477120_1_alg».proof.Proof.Gen.Kernel.Skeleton
import proofs.«147035_j70592082477120_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1024
local notation "SB" => S1x1024
local notation "SO" => S512x1024
local notation "EO" => EltTy.bf16
local notation "SA" => S512x1024

/-! ## Which kind a point is of -/

/-- The kernel's test "contraction tile is the first one", as it computes it from the grid coordinates. -/
abbrev first1 (i : grid1.Coords) : Prop := (Scalar.cmpi .ne (Scalar.extui (Scalar.cmpi .eq (BitVec.ofNat 32 (i 2).val) 0#32)) 0#32) = 1#1
/-- It holds exactly at the points whose position is a multiple of the number of contraction tiles. -/
theorem first1_iff : ∀ t : Fin cfg1.N, first1 (grid1.coords t) ↔ t.val % 4 = 0 :=
  (by decide +kernel : ∀ t : Fin grid1.N, first1 (grid1.coords t) ↔ t.val % 4 = 0)
/-- The kernel's test "contraction tile is the last one". -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-- The offsets of every whole-buffer access are zero. -/
theorem zoff1 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, fun b o E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (y : Shape.Idx SA) :
    ∃ pc ∈ (run1A c i a3 h3 a4 h4 a5 h5 a6 h6 a7 h7 hc0 hc1 x w).1, y ∈ pc.1.set :=
  View.cover_of_tiledL (run1A c i a3 h3 a4 h4 a5 h5 a6 h6 a7 h7 hc0 hc1 x w).1 (Shape.size SA) (by sl_kernel_rfl) y

/-- Read back, they are one step from the zero total: the later store covers the reset, and the total it adds to is
    the reset's value read back. -/
theorem acc1A_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (f : _) :
    a7.view.read (Elt F) (a7.view.writes (Elt F) f (run1A c i a3 h3 a4 h4 a5 h5 a6 h6 a7 h7 hc0 hc1 x w).1)
      = k1_pay2 x w (k1_pay1 (F := F)) := by
  rw [View.read_writes_eq_canon _ _ _ (cover1A c i a3 h3 a4 h4 a5 h5 a6 h6 a7 h7 hc0 hc1 x w)]
  unfold run1A; dsimp only; sl_unfold_words
  rw [View.canon_cons_unit_zero (S := SA) zoff1, View.readCov_unit_zero (S := SA) _ zoff1]
  simp only [View.readAt_eq_ld, h3.read_unread, h4.read_unread, View.ld_unit_zero (S := SX) zoff1, View.ld_unit_zero (S := SA) zoff1, View.ld_unit_zero (S := SW) zoff1]

/-- THE BODY AT A FIRST POINT. -/
theorem body1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k1_pay2 x w (k1_pay1 (F := F)))) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc1A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, fun b o E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) (y : Shape.Idx SA) :
    ∃ pc ∈ (run1B c i a3 h3 a4 h4 a5 h5 a6 h6 a7 h7 hc0 hc1 x w s).1, y ∈ pc.1.set :=
  View.cover_of_tiledL (run1B c i a3 h3 a4 h4 a5 h5 a6 h6 a7 h7 hc0 hc1 x w s).1 (Shape.size SA) (by sl_kernel_rfl) y

/-- Read back: one step from the total the point started from. -/
theorem acc1B_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) (f : _) :
    a7.view.read (Elt F) (a7.view.writes (Elt F) f (run1B c i a3 h3 a4 h4 a5 h5 a6 h6 a7 h7 hc0 hc1 x w s).1)
      = k1_pay2 x w s := by
  rw [View.read_writes_eq_canon _ _ _ (cover1B c i a3 h3 a4 h4 a5 h5 a6 h6 a7 h7 hc0 hc1 x w s)]
  unfold run1B; dsimp only; sl_unfold_words
  rw [View.canon_unit_zero (S := SA) zoff1]
  simp only [View.readAt_eq_ld, h3.read_unread, h4.read_unread, h7.read_unread, View.ld_unit_zero (S := SX) zoff1, View.ld_unit_zero (S := SA) zoff1, View.ld_unit_zero (S := SW) zoff1]

/-- THE BODY AT A MIDDLE POINT. -/
theorem body1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k1_pay2 x w s)) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc1B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run1C (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, ?_, fun E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover1C_out (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (y : Shape.Idx SA) :
    ∃ pc ∈ (run1C c i a3 h3 a4 h4 a5 h5 a6 h6 a7 h7 hc0 hc1 x w b s).1, y ∈ pc.1.set :=
  View.cover_of_tiledL (run1C c i a3 h3 a4 h4 a5 h5 a6 h6 a7 h7 hc0 hc1 x w b s).1 (Shape.size SA) (by sl_kernel_rfl) y

theorem cover1C_acc (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (y : Shape.Idx SA) :
    ∃ pc ∈ (run1C c i a3 h3 a4 h4 a5 h5 a6 h6 a7 h7 hc0 hc1 x w b s).2.1, y ∈ pc.1.set :=
  View.cover_of_tiledL (run1C c i a3 h3 a4 h4 a5 h5 a6 h6 a7 h7 hc0 hc1 x w b s).2.1 (Shape.size SA) (by sl_kernel_rfl) y

/-- Read back, the scratch is one step from the total the point started from. -/
theorem acc1C_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (f : _) :
    a7.view.read (Elt F) (a7.view.writes (Elt F) f (run1C c i a3 h3 a4 h4 a5 h5 a6 h6 a7 h7 hc0 hc1 x w b s).2.1)
      = k1_pay2 x w s := by
  rw [View.read_writes_eq_canon _ _ _ (cover1C_acc c i a3 h3 a4 h4 a5 h5 a6 h6 a7 h7 hc0 hc1 x w b s)]
  unfold run1C; dsimp only; sl_unfold_words
  rw [View.canon_unit_zero (S := SA) zoff1]
  simp only [View.readAt_eq_ld, h3.read_unread, h4.read_unread, h7.read_unread, View.ld_unit_zero (S := SX) zoff1, View.ld_unit_zero (S := SA) zoff1, View.ld_unit_zero (S := SW) zoff1]

/-- Read back, the output block is the finished total: the total it finishes is the one just stored, read back. -/
theorem out1C_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (f : _) :
    a6.view.read (Elt F) (a6.view.writes (Elt F) f (run1C c i a3 h3 a4 h4 a5 h5 a6 h6 a7 h7 hc0 hc1 x w b s).1)
      = k1_pay3 (k1_pay2 x w s) b := by
  rw [View.read_writes_eq_canon _ _ _ (cover1C_out c i a3 h3 a4 h4 a5 h5 a6 h6 a7 h7 hc0 hc1 x w b s)]
  unfold run1C; dsimp only; sl_unfold_words
  rw [View.canon_unit_zero (S := SA) zoff1]
  simp only [View.readCov_unit_zero (S := SA) _ zoff1, View.readAt_eq_ld, h3.read_unread, h4.read_unread, h5.read_unread, h7.read_unread,
    View.ld_unit_zero (S := SX) zoff1, View.ld_unit_zero (S := SA) zoff1, View.ld_unit_zero (S := SW) zoff1, View.ld_unit_zero (S := SB) zoff1]

/-- THE BODY AT A LAST POINT. -/
theorem body1C (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k1_pay3 (k1_pay2 x w s) b) ∗ owns (c : Thread nD τ) a7 fullShare (k1_pay2 x w s)) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out1C_eq c i a3 h3 a4 h4 a5 h5 a6 h6 a7 h7 hc0 hc1 x w b s f6
  unfold owns; iexists _; isplitr
  swap; · iexact H7
  ipureintro; exact acc1C_eq c i a3 h3 a4 h4 a5 h5 a6 h6 a7 h7 hc0 hc1 x w b s f7

end Cert.Kernel.Hand

end
-- ==== Proof.K.R1.lean ====
/-
  The second layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1024
local notation "SB" => S1x1024
local notation "SO" => S512x1024
local notation "EO" => EltTy.bf16
local notation "SA" => S512x1024

/-! ## The schedule facts the obligation needs -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction tile the output block is idle and is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
/-- At the last contraction tile it is live. -/
theorem live1_3 : ∀ t : Fin cfg1.N, last1 (grid1.coords t) → cfg1.idle 3 (grid1.coords t) = false := by decide +kernel

/-- Each window's current staging memref at point t, as the pipeline passes it to the body, and its wholeness. -/
abbrev ms1_0 (t : Fin cfg1.N) : Memref sig .tc .vmem SX EX := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem SW .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem SB .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem SO EO := win1_3.stage (cfg1.slots t 3)
abbrev hs1_3 (t : Fin cfg1.N) : (ms1_3 t).IsWhole := hstage1_3 ((cfg1.slots t 3).cast nbuf1_3)
/-- The scratch that holds the running total. -/
abbrev scM1 : Memref sig .tc .vmem SA .f32 := Memref.whole cc1_scratch0

/-- The core's scoped buffers other than this call's staging buffers and its scratch, each at some contents. -/
abbrev others1 (c : Dev nD) : sProp 𝕄 :=
  Pipeline.scopedRestBut (Ix := Unit) (Name := ℕ) (U := UR sig nD τ) (Lvl := ℕ) (Val := Elt F) spec1 c [cc1_scratch0]

/-- What the region is handed besides its windows: the scratch at some contents, the other scoped buffers, the
    generator register. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]
  rfl

section
variable (V : (c : Dev nD) → (b : Ref sig .tc) → Buf (Elt F) ((c : Thread nD τ).loc b))

/-! ## The input blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point t under their literal types: the activations' tile, the weights' tile, the bias row's tile. -/
abbrev xb1 (c : Dev nD) (t : Fin cfg1.N) : Vec F SX EX := iblk1 V c 0 t
abbrev wb1 (c : Dev nD) (t : Fin cfg1.N) : Vec F SW .f32 := iblk1 V c 1 t
abbrev bb1 (c : Dev nD) (t : Fin cfg1.N) : Vec F SB .f32 := iblk1 V c 2 t

/-! ## The running total -/

/-- The scratch after point n. -/
def acc1 (c : Dev nD) : (n : ℕ) → n < cfg1.N → Vec F SA .f32
  | 0, h => k1_pay2 (xb1 V c ⟨0, h⟩) (wb1 V c ⟨0, h⟩) (k1_pay1 (F := F))
  | n + 1, h =>
    if (n + 1) % 4 = 0 then k1_pay2 (xb1 V c ⟨n + 1, h⟩) (wb1 V c ⟨n + 1, h⟩) (k1_pay1 (F := F))
    else k1_pay2 (xb1 V c ⟨n + 1, h⟩) (wb1 V c ⟨n + 1, h⟩) (acc1 c n (Nat.lt_of_succ_lt h))

/-- At a first point: one step from zero. -/
theorem acc1_first (c : Dev nD) (t : Fin cfg1.N) (h : t.val % 4 = 0) :
    acc1 V c t.val t.isLt = k1_pay2 (xb1 V c t) (wb1 V c t) (k1_pay1 (F := F)) := by
  obtain ⟨n, hn⟩ := t
  cases n with
  | zero => rfl
  | succ n => exact (if_pos h)

/-- Elsewhere: one step from the point before. -/
theorem acc1_next (c : Dev nD) (t : Fin cfg1.N) (h : ¬t.val % 4 = 0) :
    acc1 V c t.val t.isLt
      = k1_pay2 (xb1 V c t) (wb1 V c t) (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (bb1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (bb1 V c t) := by dsimp only [dat1]

/-- An input's current staging buffer holds its block at every point, fetched there or not: where it is not fetched
    its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · -- a first point: whatever the scratch held, it is reset
    have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl)]
    rw [acc1_first V c t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (body1A c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (body1A c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first1 (grid1.coords t) := fun h => h0 ((first1_iff t).mp h)
    have hz : t.val ≠ 0 := fun h => h0 (by rw [h])
    rw [acc1_next V c t h0]
    rw [Phi1_castSucc V c t, Phi1_pos V c _ _ hz]
    by_cases h1 : t.val % 4 = 3
    · -- a last point: one more step, then the output block is written
      have hl : last1 (grid1.coords t) := (last1_iff t).mpr h1
      rw [show (dat1 V c).leavesExact 3 t = owns (c : Thread nD τ) (ms1_3 t) fullShare ((dat1 V c).after 3 t) from by
        unfold Dat.leavesExact; rw [live1_3 t hl], after1_3, acc1_next V c t h0]
      iintro ⟨⟨⟨HS, HR⟩, Hg⟩, Ho, ⟨%d0, H0⟩, ⟨%d1, H1⟩, ⟨%d2, H2⟩, ⟨%d3, H3⟩⟩
      iapply (body1C c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last1 (grid1.coords t) := fun h => h1 ((last1_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (body1B c (grid1.coords t) _ _ _ _ _ _ _ _ _ _ hf hl (xb1 V c t) (wb1 V c t) (bb1 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back, the total forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; decide), PhiA1_eq]
  iintro ⟨⟨HS, HR⟩, Hg⟩
  isplitl [HS HR]
  · isplitl [HS]
    · iexists _; iexact HS
    iexact HR
  iexact Hg

end

end Cert.Kernel.Hand

end
-- ==== Proof.K.R2Runs.lean ====
/-
  The body of the third layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.Kernel.Launch
import proofs.«147035_j70592082477120_1_alg».proof.Proof.Gen.Kernel.Skeleton
import proofs.«147035_j70592082477120_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1000
local notation "SB" => S1x1000
local notation "SO" => S512x1000
local notation "EO" => EltTy.f32
local notation "SA" => S512x1000

/-! ## Which kind a point is of -/

/-- The kernel's test "contraction tile is the first one", as it computes it from the grid coordinates. -/
abbrev first2 (i : grid2.Coords) : Prop := (Scalar.cmpi .ne (Scalar.extui (Scalar.cmpi .eq (BitVec.ofNat 32 (i 2).val) 0#32)) 0#32) = 1#1
/-- It holds exactly at the points whose position is a multiple of the number of contraction tiles. -/
theorem first2_iff : ∀ t : Fin cfg2.N, first2 (grid2.coords t) ↔ t.val % 4 = 0 :=
  (by decide +kernel : ∀ t : Fin grid2.N, first2 (grid2.coords t) ↔ t.val % 4 = 0)
/-- The kernel's test "contraction tile is the last one". -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- The offsets of every whole-buffer access are zero. -/
theorem zoff2 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, fun b o E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (y : Shape.Idx SA) :
    ∃ pc ∈ (run2A c i a3 h3 a4 h4 a5 h5 a6 h6 a7 h7 hc0 hc1 x w).1, y ∈ pc.1.set :=
  View.cover_of_tiledL (run2A c i a3 h3 a4 h4 a5 h5 a6 h6 a7 h7 hc0 hc1 x w).1 (Shape.size SA) (by sl_kernel_rfl) y

/-- Read back, they are one step from the zero total: the later store covers the reset, and the total it adds to is
    the reset's value read back. -/
theorem acc2A_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (f : _) :
    a7.view.read (Elt F) (a7.view.writes (Elt F) f (run2A c i a3 h3 a4 h4 a5 h5 a6 h6 a7 h7 hc0 hc1 x w).1)
      = k2_pay2 x w (k2_pay1 (F := F)) := by
  rw [View.read_writes_eq_canon _ _ _ (cover2A c i a3 h3 a4 h4 a5 h5 a6 h6 a7 h7 hc0 hc1 x w)]
  unfold run2A; dsimp only; sl_unfold_words
  rw [View.canon_cons_unit_zero (S := SA) zoff2, View.readCov_unit_zero (S := SA) _ zoff2]
  simp only [View.readAt_eq_ld, h3.read_unread, h4.read_unread, View.ld_unit_zero (S := SX) zoff2, View.ld_unit_zero (S := SA) zoff2, View.ld_unit_zero (S := SW) zoff2]

/-- THE BODY AT A FIRST POINT. -/
theorem body2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k2_pay2 x w (k2_pay1 (F := F)))) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc2A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, fun b o E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) (y : Shape.Idx SA) :
    ∃ pc ∈ (run2B c i a3 h3 a4 h4 a5 h5 a6 h6 a7 h7 hc0 hc1 x w s).1, y ∈ pc.1.set :=
  View.cover_of_tiledL (run2B c i a3 h3 a4 h4 a5 h5 a6 h6 a7 h7 hc0 hc1 x w s).1 (Shape.size SA) (by sl_kernel_rfl) y

/-- Read back: one step from the total the point started from. -/
theorem acc2B_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) (f : _) :
    a7.view.read (Elt F) (a7.view.writes (Elt F) f (run2B c i a3 h3 a4 h4 a5 h5 a6 h6 a7 h7 hc0 hc1 x w s).1)
      = k2_pay2 x w s := by
  rw [View.read_writes_eq_canon _ _ _ (cover2B c i a3 h3 a4 h4 a5 h5 a6 h6 a7 h7 hc0 hc1 x w s)]
  unfold run2B; dsimp only; sl_unfold_words
  rw [View.canon_unit_zero (S := SA) zoff2]
  simp only [View.readAt_eq_ld, h3.read_unread, h4.read_unread, h7.read_unread, View.ld_unit_zero (S := SX) zoff2, View.ld_unit_zero (S := SA) zoff2, View.ld_unit_zero (S := SW) zoff2]

/-- THE BODY AT A MIDDLE POINT. -/
theorem body2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k2_pay2 x w s)) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc2B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run2C (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, ?_, fun E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover2C_out (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (y : Shape.Idx SA) :
    ∃ pc ∈ (run2C c i a3 h3 a4 h4 a5 h5 a6 h6 a7 h7 hc0 hc1 x w b s).1, y ∈ pc.1.set :=
  View.cover_of_tiledL (run2C c i a3 h3 a4 h4 a5 h5 a6 h6 a7 h7 hc0 hc1 x w b s).1 (Shape.size SA) (by sl_kernel_rfl) y

theorem cover2C_acc (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (y : Shape.Idx SA) :
    ∃ pc ∈ (run2C c i a3 h3 a4 h4 a5 h5 a6 h6 a7 h7 hc0 hc1 x w b s).2.1, y ∈ pc.1.set :=
  View.cover_of_tiledL (run2C c i a3 h3 a4 h4 a5 h5 a6 h6 a7 h7 hc0 hc1 x w b s).2.1 (Shape.size SA) (by sl_kernel_rfl) y

/-- Read back, the scratch is one step from the total the point started from. -/
theorem acc2C_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (f : _) :
    a7.view.read (Elt F) (a7.view.writes (Elt F) f (run2C c i a3 h3 a4 h4 a5 h5 a6 h6 a7 h7 hc0 hc1 x w b s).2.1)
      = k2_pay2 x w s := by
  rw [View.read_writes_eq_canon _ _ _ (cover2C_acc c i a3 h3 a4 h4 a5 h5 a6 h6 a7 h7 hc0 hc1 x w b s)]
  unfold run2C; dsimp only; sl_unfold_words
  rw [View.canon_unit_zero (S := SA) zoff2]
  simp only [View.readAt_eq_ld, h3.read_unread, h4.read_unread, h7.read_unread, View.ld_unit_zero (S := SX) zoff2, View.ld_unit_zero (S := SA) zoff2, View.ld_unit_zero (S := SW) zoff2]

/-- Read back, the output block is the finished total: the total it finishes is the one just stored, read back. -/
theorem out2C_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (f : _) :
    a6.view.read (Elt F) (a6.view.writes (Elt F) f (run2C c i a3 h3 a4 h4 a5 h5 a6 h6 a7 h7 hc0 hc1 x w b s).1)
      = k2_pay3 (k2_pay2 x w s) b := by
  rw [View.read_writes_eq_canon _ _ _ (cover2C_out c i a3 h3 a4 h4 a5 h5 a6 h6 a7 h7 hc0 hc1 x w b s)]
  unfold run2C; dsimp only; sl_unfold_words
  rw [View.canon_unit_zero (S := SA) zoff2]
  simp only [View.readCov_unit_zero (S := SA) _ zoff2, View.readAt_eq_ld, h3.read_unread, h4.read_unread, h5.read_unread, h7.read_unread,
    View.ld_unit_zero (S := SX) zoff2, View.ld_unit_zero (S := SA) zoff2, View.ld_unit_zero (S := SW) zoff2, View.ld_unit_zero (S := SB) zoff2]

/-- THE BODY AT A LAST POINT. -/
theorem body2C (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k2_pay3 (k2_pay2 x w s) b) ∗ owns (c : Thread nD τ) a7 fullShare (k2_pay2 x w s)) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out2C_eq c i a3 h3 a4 h4 a5 h5 a6 h6 a7 h7 hc0 hc1 x w b s f6
  unfold owns; iexists _; isplitr
  swap; · iexact H7
  ipureintro; exact acc2C_eq c i a3 h3 a4 h4 a5 h5 a6 h6 a7 h7 hc0 hc1 x w b s f7

end Cert.Kernel.Hand

end
-- ==== Proof.K.R2.lean ====
/-
  The third layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1000
local notation "SB" => S1x1000
local notation "SO" => S512x1000
local notation "EO" => EltTy.f32
local notation "SA" => S512x1000

/-! ## The schedule facts the obligation needs -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last contraction tile the output block is idle and is not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
/-- At the last contraction tile it is live. -/
theorem live2_3 : ∀ t : Fin cfg2.N, last2 (grid2.coords t) → cfg2.idle 3 (grid2.coords t) = false := by decide +kernel

/-- Each window's current staging memref at point t, as the pipeline passes it to the body, and its wholeness. -/
abbrev ms2_0 (t : Fin cfg2.N) : Memref sig .tc .vmem SX EX := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem SW .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem SB .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem SO EO := win2_3.stage (cfg2.slots t 3)
abbrev hs2_3 (t : Fin cfg2.N) : (ms2_3 t).IsWhole := hstage2_3 ((cfg2.slots t 3).cast nbuf2_3)
/-- The scratch that holds the running total. -/
abbrev scM2 : Memref sig .tc .vmem SA .f32 := Memref.whole cc2_scratch0

/-- The core's scoped buffers other than this call's staging buffers and its scratch, each at some contents. -/
abbrev others2 (c : Dev nD) : sProp 𝕄 :=
  Pipeline.scopedRestBut (Ix := Unit) (Name := ℕ) (U := UR sig nD τ) (Lvl := ℕ) (Val := Elt F) spec2 c [cc2_scratch0]

/-- What the region is handed besides its windows: the scratch at some contents, the other scoped buffers, the
    generator register. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]
  rfl

section
variable (V : (c : Dev nD) → (b : Ref sig .tc) → Buf (Elt F) ((c : Thread nD τ).loc b))

/-! ## The input blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three input blocks at point t under their literal types: the activations' tile, the weights' tile, the bias row's tile. -/
abbrev xb2 (c : Dev nD) (t : Fin cfg2.N) : Vec F SX EX := iblk2 V c 0 t
abbrev wb2 (c : Dev nD) (t : Fin cfg2.N) : Vec F SW .f32 := iblk2 V c 1 t
abbrev bb2 (c : Dev nD) (t : Fin cfg2.N) : Vec F SB .f32 := iblk2 V c 2 t

/-! ## The running total -/

/-- The scratch after point n. -/
def acc2 (c : Dev nD) : (n : ℕ) → n < cfg2.N → Vec F SA .f32
  | 0, h => k2_pay2 (xb2 V c ⟨0, h⟩) (wb2 V c ⟨0, h⟩) (k2_pay1 (F := F))
  | n + 1, h =>
    if (n + 1) % 4 = 0 then k2_pay2 (xb2 V c ⟨n + 1, h⟩) (wb2 V c ⟨n + 1, h⟩) (k2_pay1 (F := F))
    else k2_pay2 (xb2 V c ⟨n + 1, h⟩) (wb2 V c ⟨n + 1, h⟩) (acc2 c n (Nat.lt_of_succ_lt h))

/-- At a first point: one step from zero. -/
theorem acc2_first (c : Dev nD) (t : Fin cfg2.N) (h : t.val % 4 = 0) :
    acc2 V c t.val t.isLt = k2_pay2 (xb2 V c t) (wb2 V c t) (k2_pay1 (F := F)) := by
  obtain ⟨n, hn⟩ := t
  cases n with
  | zero => rfl
  | succ n => exact (if_pos h)

/-- Elsewhere: one step from the point before. -/
theorem acc2_next (c : Dev nD) (t : Fin cfg2.N) (h : ¬t.val % 4 = 0) :
    acc2 V c t.val t.isLt
      = k2_pay2 (xb2 V c t) (wb2 V c t) (acc2 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (bb2 V c t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (bb2 V c t) := by dsimp only [dat2]

/-- An input's current staging buffer holds its block at every point, fetched there or not: where it is not fetched
    its block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  by_cases h0 : t.val % 4 = 0
  · -- a first point: whatever the scratch held, it is reset
    have hf : first2 (grid2.coords t) := (first2_iff t).mpr h0
    have hl : ¬last2 (grid2.coords t) := fun h => by have := (last2_iff t).mp h; omega
    rw [Dat.leavesExact_idle (dat2 V c) 3 t (idle2_3 t hl) (noFlush2_3 t hl)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (body2A c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (body2A c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first2 (grid2.coords t) := fun h => h0 ((first2_iff t).mp h)
    have hz : t.val ≠ 0 := fun h => h0 (by rw [h])
    rw [acc2_next V c t h0]
    rw [Phi2_castSucc V c t, Phi2_pos V c _ _ hz]
    by_cases h1 : t.val % 4 = 3
    · -- a last point: one more step, then the output block is written
      have hl : last2 (grid2.coords t) := (last2_iff t).mpr h1
      rw [show (dat2 V c).leavesExact 3 t = owns (c : Thread nD τ) (ms2_3 t) fullShare ((dat2 V c).after 3 t) from by
        unfold Dat.leavesExact; rw [live2_3 t hl], after2_3, acc2_next V c t h0]
      iintro ⟨⟨⟨HS, HR⟩, Hg⟩, Ho, ⟨%d0, H0⟩, ⟨%d1, H1⟩, ⟨%d2, H2⟩, ⟨%d3, H3⟩⟩
      iapply (body2C c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last2 (grid2.coords t) := fun h => h1 ((last2_iff t).mp h)
      rw [Dat.leavesExact_idle (dat2 V c) 3 t (idle2_3 t hl) (noFlush2_3 t hl)]
      iintro ⟨⟨⟨HS, HR⟩, Hg⟩, Ho, ⟨%d0, H0⟩, ⟨%d1, H1⟩, ⟨%d2, H2⟩, ⟨%d3, H3⟩⟩
      iapply (body2B c (grid2.coords t) _ _ _ _ _ _ _ _ _ _ hf hl (xb2 V c t) (wb2 V c t) (bb2 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back, the total forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; decide), PhiA2_eq]
  iintro ⟨⟨HS, HR⟩, Hg⟩
  isplitl [HS HR]
  · isplitl [HS]
    · iexists _; iexact HS
    iexact HR
  iexact Hg

end

end Cert.Kernel.Hand

end
-- ==== Proof.K.Main.lean ====
/-
  The whole program, from the launch to the return: three host reshapes, then the three layers' kernels back to back.

  The core's unscoped buffers are followed through the program as a fold of contents, one per boundary:
    at launch        every buffer as the launch memory has it;
    after the host   the three bias vectors copied, reshaped to rows, into the rows the kernels read; nothing else moved;
    after layer 1    its output array at what the kernel's write-backs leave (the write-backs of every last contraction
                     tile, folded over the grid); its three input arrays, and every buffer it does not touch, as entered;
    after layer 2    likewise, its input being the first layer's output, which it leaves as it found it;
    after layer 3    likewise; this last output array is the program's result.
  Each layer is entered from exactly the contents the one before left, so its proof data are taken at those contents.
  Around the buffers the thread state carries the generator register at some state and the core owing nothing; a
  layer's kernel takes the register and the scoped buffers it does not stage into its invariant and gives them back
  at its last point with the running total forgotten.

  Read back through the fold, every argument array ends as launched (no host operation and no kernel writes one), and
  the result array holds the third layer's folded write-backs.
-/
import proofs.«147035_j70592082477120_1_alg».proof.Proof.K.R0
import proofs.«147035_j70592082477120_1_alg».proof.Proof.K.R1
import proofs.«147035_j70592082477120_1_alg».proof.Proof.K.R2
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch: the memory the program is started on. -/
abbrev W0 : Dev nD → Valuation τ sig (Elt F) := fun c b => (s₀ m ρ).mem ((c : Dev nD), b)
/-- After the three reshapes: the first layer's kernel is entered from here. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b

/-- After the first layer: its four arrays at what its pipeline leaves, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts that put the first layer's arrays back among the unscoped buffers at its exit: each array holds what
    the pipeline leaves, every other buffer what it held at entry. -/
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second layer, entered from the first layer's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third layer, entered from the second layer's exit: the contents the program returns with. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem left2 (c : Dev nD) (w : Fin cfg2.W) : (dat2 (V3 m ρ) c).arrAt w cfg2.N = V4 m ρ c (Pipeline.arrRef spec2 w) :=
  (W4_arr m ρ c w).symm
theorem kept2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## Reading the fold back -/

/-- The host stretch writes the three reshaped rows and nothing else. -/
theorem hostOps0_writes : (hostOps0 : List (HloOp τ sig (Elt F))).Forall fun op =>
    op.writes ⊆ (([main_v0, main_v1, main_v2] : List (Ref sig .tc)).map (Proc.devRef (τ := τ) .tc)).toFinset := by
  refine ⟨?_, ?_, ?_⟩ <;>
    exact Finset.singleton_subset_iff.mpr (List.mem_toFinset.mpr (List.mem_map_of_mem (by decide)))
/-- So any other buffer is after it what the launch memory holds. -/
theorem W1_unwritten (c : Dev nD) (b : Ref sig .tc) (hb : b ∉ ([main_v0, main_v1, main_v2] : List (Ref sig .tc))) :
    W1 m ρ c (Proc.devRef .tc b) = m ((c : Thread nD τ).loc b) :=
  (StableHlo.after_of_writes_sub hostOps0 _ hostOps0_writes hb).trans rfl

/-- An input array of the first layer is at its exit what it was at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-! ### What each layer is entered with -/

/-- The first layer's activations and weights are the launch memory's. -/
theorem V1_main_arg0 (c : Dev nD) : V1 m ρ c main_arg0 = m ((c : Thread nD τ).loc main_arg0) := W1_unwritten m ρ c main_arg0 (by decide)
theorem V1_main_arg1 (c : Dev nD) : V1 m ρ c main_arg1 = m ((c : Thread nD τ).loc main_arg1) := W1_unwritten m ρ c main_arg1 (by decide)

/-- The second layer's activations are the first layer's folded write-backs; -/
theorem V2_main_v3 (c : Dev nD) : V2 m ρ c main_v3 = (dat0 (V1 m ρ) c).arrAt 3 cfg0.N := W2_arr m ρ c 3
/-- its weights are the launch memory's and its bias row the host stretch's, the first layer touching neither. -/
theorem V2_main_arg3 (c : Dev nD) : V2 m ρ c main_arg3 = m ((c : Thread nD τ).loc main_arg3) :=
  (W2_of_ne m ρ c main_arg3 (by decide)).trans (W1_unwritten m ρ c main_arg3 (by decide))
theorem V2_main_v1 (c : Dev nD) : V2 m ρ c main_v1 = V1 m ρ c main_v1 := W2_of_ne m ρ c main_v1 (by decide)

/-- The third layer's activations are the second layer's folded write-backs; -/
theorem V3_main_v4 (c : Dev nD) : V3 m ρ c main_v4 = (dat1 (V2 m ρ) c).arrAt 3 cfg1.N := W3_arr m ρ c 3
/-- its weights are the launch memory's and its bias row the host stretch's, neither earlier layer touching them. -/
theorem V3_main_arg5 (c : Dev nD) : V3 m ρ c main_arg5 = m ((c : Thread nD τ).loc main_arg5) :=
  (W3_of_ne m ρ c main_arg5 (by decide)).trans ((W2_of_ne m ρ c main_arg5 (by decide)).trans (W1_unwritten m ρ c main_arg5 (by decide)))
theorem V3_main_v2 (c : Dev nD) : V3 m ρ c main_v2 = V1 m ρ c main_v2 :=
  (W3_of_ne m ρ c main_v2 (by decide)).trans (W2_of_ne m ρ c main_v2 (by decide))

/-! ### What the program returns with -/

/-- The result array holds the third layer's folded write-backs. -/
theorem W4_result (c : Dev nD) : W4 m ρ c (Proc.devRef .tc main_v5) = (dat2 (V3 m ρ) c).arrAt 3 cfg2.N := W4_arr m ρ c 3

/-- Every argument array ends as launched. The first layer reads arguments 0 and 1 through input windows, the second
    argument 3, the third argument 5; arguments 2, 4 and 6 are read by the host reshapes only. -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    (W2_in m ρ c 0 rfl).trans (W1_unwritten m ρ c main_arg0 (by decide))
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <|
    (W2_in m ρ c 1 rfl).trans (W1_unwritten m ρ c main_arg1 (by decide))
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_of_ne m ρ c main_arg2 (by decide)).trans (W1_unwritten m ρ c main_arg2 (by decide))
theorem W4_main_arg3 (c : Dev nD) : W4 m ρ c (Proc.devRef .tc main_arg3) = m ((c : Thread nD τ).loc main_arg3) :=
  (W4_of_ne m ρ c main_arg3 (by decide)).trans <| (W3_in m ρ c 1 rfl).trans <|
    (W2_of_ne m ρ c main_arg3 (by decide)).trans (W1_unwritten m ρ c main_arg3 (by decide))
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_of_ne m ρ c main_arg4 (by decide)).trans (W1_unwritten m ρ c main_arg4 (by decide))
theorem W4_main_arg5 (c : Dev nD) : W4 m ρ c (Proc.devRef .tc main_arg5) = m ((c : Thread nD τ).loc main_arg5) :=
  (W4_in m ρ c 1 rfl).trans <| (W3_of_ne m ρ c main_arg5 (by decide)).trans <|
    (W2_of_ne m ρ c main_arg5 (by decide)).trans (W1_unwritten m ρ c main_arg5 (by decide))
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <|
    (W2_of_ne m ρ c main_arg6 (by decide)).trans (W1_unwritten m ρ c main_arg6 (by decide))

/-! ## The proof data and the thread state -/

/-- No kernel has a prefetched table. -/
abbrev adm : (p : Fin 3) → (pcfgs (F := F) p).Adm := fun p => (cfgs p).toPCfg_adm
/-- Each layer's proof data, taken at the contents its kernel is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core waits on another: no pair is given a level. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A line of host operations over the unscoped buffers held at `W`, the rest riding along; it leaves them at the
    line's effect on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reshape allocates nothing. -/
theorem hostOps0_fresh : (hostOps0 : List (HloOp τ sig (Elt F))).Forall fun op => op.fresh = ∅ := by
  simp only [List.Forall]; repeat' constructor
/-- An unscoped reference of the core is among the buffers the thread state holds. -/
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the program ends in, the owing apart: every unscoped buffer at the last contents, the register at some state. -/
abbrev Tₙ (c : Dev nD) : sProp 𝕄 := iprop(StableHlo.held (c : Thread nD τ) (Pipeline.ucRefs τ sig) (W4 m ρ c) ∗ ∃ r, prngReg c r)

/-! ## The three kernels as segments

Each is entered from the unscoped buffers at one boundary's contents and left at the next. On the way in its four
arrays are taken out of the unscoped buffers (the rest bypasses the kernel) and the register joins the scoped buffers
it does not stage to make the invariant before the first point; on the way out the invariant after the last point
gives both back, and the arrays, at what the pipeline leaves, rejoin the rest. -/

set_option backward.isDefEq.respectTransparency.types false in
/-- The first layer: from the contents after the host stretch to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer: from `W2` to `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer: from `W3` to the last contents `W4`, the owing set apart for the launch to read. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine BIBase.Entails.trans ?_ (hin2 (V3 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The host stretch from the launch contents, then the three kernels in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program is the run of these segments. -/
theorem main_run (c : Dev nD) : main (F := F) c = Pipeline.Seg.run (segs m ρ) := (main_chain c).trans (by chain_rfl)

set_option backward.isDefEq.respectTransparency.types false in
/-- From any memory with zero counters every weakly fair execution of the program on the cores terminates without a
    fault, and in every final state each unscoped buffer of each core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The seven argument arrays read off a final state that holds the last contents. -/
theorem args_kept {s : MemSt nD τ sig (Elt F)} (c : Dev nD)
    (h : ∀ b ∈ Pipeline.ucRefs τ sig, s.mem (((c : Thread nD τ)).1, b) = W4 m ρ c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6) :=
  ⟨(h _ (uc_mem main_arg0 (by decide))).trans (W4_main_arg0 m ρ c),
   (h _ (uc_mem main_arg1 (by decide))).trans (W4_main_arg1 m ρ c),
   (h _ (uc_mem main_arg2 (by decide))).trans (W4_main_arg2 m ρ c),
   (h _ (uc_mem main_arg3 (by decide))).trans (W4_main_arg3 m ρ c),
   (h _ (uc_mem main_arg4 (by decide))).trans (W4_main_arg4 m ρ c),
   (h _ (uc_mem main_arg5 (by decide))).trans (W4_main_arg5 m ρ c),
   (h _ (uc_mem main_arg6 (by decide))).trans (W4_main_arg6 m ρ c)⟩

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m ρ c (h c)) (run_all m ρ)

/-- The program runs, its result array ends holding the third layer's folded write-backs, and its argument arrays
    end as launched. -/
theorem value : θ_run defs (onTc (τ := τ) (main (F := F))) ⟨m, fun _ => 0, ρ⟩ (fun r => ∀ c : Dev nD,
      r.2.mem ((c.tc : Thread nD τ).loc main_v5) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (uc_mem main_v5 (by decide))).trans (W4_result m ρ c), args_kept m ρ c (h c)⟩) (run_all m ρ)

end Cert.Kernel.Hand

end
-- ==== Proof.KI.R0Runs.lean ====
/-
  The body of the first layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.KernelIdeal.Launch
import proofs.«147035_j70592082477120_1_alg».proof.Proof.Gen.KernelIdeal.Skeleton
import proofs.«147035_j70592082477120_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.f32
local notation "SW" => S1024x1024
local notation "SB" => S1x1024
local notation "SO" => S512x1024
local notation "EO" => EltTy.bf16
local notation "SA" => S512x1024

/-! ## Which kind a point is of -/

/-- The kernel's test "contraction tile is the first one", as it computes it from the grid coordinates. -/
abbrev first0 (i : grid0.Coords) : Prop := (Scalar.cmpi .ne (Scalar.extui (Scalar.cmpi .eq (BitVec.ofNat 32 (i 2).val) 0#32)) 0#32) = 1#1
/-- It holds exactly at the points whose position is a multiple of the number of contraction tiles. -/
theorem first0_iff : ∀ t : Fin cfg0.N, first0 (grid0.coords t) ↔ t.val % 2 = 0 :=
  (by decide +kernel : ∀ t : Fin grid0.N, first0 (grid0.coords t) ↔ t.val % 2 = 0)
/-- The kernel's test "contraction tile is the last one". -/
abbrev last0 (i : grid0.Coords) : Prop := k0_cond2 i = 1#1
theorem last0_iff : ∀ t : Fin cfg0.N, last0 (grid0.coords t) ↔ t.val % 2 = 1 :=
  (by decide +kernel : ∀ t : Fin grid0.N, last0 (grid0.coords t) ↔ t.val % 2 = 1)

/-- The offsets of every whole-buffer access are zero. -/
theorem zoff0 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, fun b o E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (y : Shape.Idx SA) :
    ∃ pc ∈ (run0A c i a3 h3 a4 h4 a5 h5 a6 h6 a7 h7 hc0 hc1 x w).1, y ∈ pc.1.set :=
  View.cover_of_tiledL (run0A c i a3 h3 a4 h4 a5 h5 a6 h6 a7 h7 hc0 hc1 x w).1 (Shape.size SA) (by sl_kernel_rfl) y

/-- Read back, they are one step from the zero total: the later store covers the reset, and the total it adds to is
    the reset's value read back. -/
theorem acc0A_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (f : _) :
    a7.view.read (Elt F) (a7.view.writes (Elt F) f (run0A c i a3 h3 a4 h4 a5 h5 a6 h6 a7 h7 hc0 hc1 x w).1)
      = k0_pay2 x w (k0_pay1 (F := F)) := by
  rw [View.read_writes_eq_canon _ _ _ (cover0A c i a3 h3 a4 h4 a5 h5 a6 h6 a7 h7 hc0 hc1 x w)]
  unfold run0A; dsimp only; sl_unfold_words
  rw [View.canon_cons_unit_zero (S := SA) zoff0, View.readCov_unit_zero (S := SA) _ zoff0]
  simp only [View.readAt_eq_ld, h3.read_unread, h4.read_unread, View.ld_unit_zero (S := SX) zoff0, View.ld_unit_zero (S := SA) zoff0, View.ld_unit_zero (S := SW) zoff0]

/-- THE BODY AT A FIRST POINT. -/
theorem body0A (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first0 i) (hc1 : ¬last0 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k0_pay2 x w (k0_pay1 (F := F)))) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc0A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, fun b o E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) (y : Shape.Idx SA) :
    ∃ pc ∈ (run0B c i a3 h3 a4 h4 a5 h5 a6 h6 a7 h7 hc0 hc1 x w s).1, y ∈ pc.1.set :=
  View.cover_of_tiledL (run0B c i a3 h3 a4 h4 a5 h5 a6 h6 a7 h7 hc0 hc1 x w s).1 (Shape.size SA) (by sl_kernel_rfl) y

/-- Read back: one step from the total the point started from. -/
theorem acc0B_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (s : Vec F SA .f32) (f : _) :
    a7.view.read (Elt F) (a7.view.writes (Elt F) f (run0B c i a3 h3 a4 h4 a5 h5 a6 h6 a7 h7 hc0 hc1 x w s).1)
      = k0_pay2 x w s := by
  rw [View.read_writes_eq_canon _ _ _ (cover0B c i a3 h3 a4 h4 a5 h5 a6 h6 a7 h7 hc0 hc1 x w s)]
  unfold run0B; dsimp only; sl_unfold_words
  rw [View.canon_unit_zero (S := SA) zoff0]
  simp only [View.readAt_eq_ld, h3.read_unread, h4.read_unread, h7.read_unread, View.ld_unit_zero (S := SX) zoff0, View.ld_unit_zero (S := SA) zoff0, View.ld_unit_zero (S := SW) zoff0]

/-- THE BODY AT A MIDDLE POINT. -/
theorem body0B (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : ¬last0 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k0_pay2 x w s)) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc0B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run0C (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__lambda_ i a3 h3 a4 h4 a5 h5 a6 h6 a7 h7) K } := by
  refine ⟨?_, ?_, fun E K => ?run⟩
  case run =>
    simp only [cc0__lambda__eq_skeleton]; unfold cc0__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover0C_out (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (y : Shape.Idx SA) :
    ∃ pc ∈ (run0C c i a3 h3 a4 h4 a5 h5 a6 h6 a7 h7 hc0 hc1 x w b s).1, y ∈ pc.1.set :=
  View.cover_of_tiledL (run0C c i a3 h3 a4 h4 a5 h5 a6 h6 a7 h7 hc0 hc1 x w b s).1 (Shape.size SA) (by sl_kernel_rfl) y

theorem cover0C_acc (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (y : Shape.Idx SA) :
    ∃ pc ∈ (run0C c i a3 h3 a4 h4 a5 h5 a6 h6 a7 h7 hc0 hc1 x w b s).2.1, y ∈ pc.1.set :=
  View.cover_of_tiledL (run0C c i a3 h3 a4 h4 a5 h5 a6 h6 a7 h7 hc0 hc1 x w b s).2.1 (Shape.size SA) (by sl_kernel_rfl) y

/-- Read back, the scratch is one step from the total the point started from. -/
theorem acc0C_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (f : _) :
    a7.view.read (Elt F) (a7.view.writes (Elt F) f (run0C c i a3 h3 a4 h4 a5 h5 a6 h6 a7 h7 hc0 hc1 x w b s).2.1)
      = k0_pay2 x w s := by
  rw [View.read_writes_eq_canon _ _ _ (cover0C_acc c i a3 h3 a4 h4 a5 h5 a6 h6 a7 h7 hc0 hc1 x w b s)]
  unfold run0C; dsimp only; sl_unfold_words
  rw [View.canon_unit_zero (S := SA) zoff0]
  simp only [View.readAt_eq_ld, h3.read_unread, h4.read_unread, h7.read_unread, View.ld_unit_zero (S := SX) zoff0, View.ld_unit_zero (S := SA) zoff0, View.ld_unit_zero (S := SW) zoff0]

/-- Read back, the output block is the finished total: the total it finishes is the one just stored, read back. -/
theorem out0C_eq (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32) (s : Vec F SA .f32) (f : _) :
    a6.view.read (Elt F) (a6.view.writes (Elt F) f (run0C c i a3 h3 a4 h4 a5 h5 a6 h6 a7 h7 hc0 hc1 x w b s).1)
      = k0_pay3 (k0_pay2 x w s) b := by
  rw [View.read_writes_eq_canon _ _ _ (cover0C_out c i a3 h3 a4 h4 a5 h5 a6 h6 a7 h7 hc0 hc1 x w b s)]
  unfold run0C; dsimp only; sl_unfold_words
  rw [View.canon_unit_zero (S := SA) zoff0]
  simp only [View.readCov_unit_zero (S := SA) _ zoff0, View.readAt_eq_ld, h3.read_unread, h4.read_unread, h5.read_unread, h7.read_unread,
    View.ld_unit_zero (S := SX) zoff0, View.ld_unit_zero (S := SA) zoff0, View.ld_unit_zero (S := SW) zoff0, View.ld_unit_zero (S := SB) zoff0]

/-- THE BODY AT A LAST POINT. -/
theorem body0C (c : Dev nD) (i : grid0.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first0 i) (hc1 : last0 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k0_pay3 (k0_pay2 x w s) b) ∗ owns (c : Thread nD τ) a7 fullShare (k0_pay2 x w s)) -∗ K ⟨⟩))
      ⊢ wp frame (wpE (defs₀ (F := F)) Variants.none c none) E (cc0__lambda_ i a3 h3 a4 h4 a5 h5 a6 h6 a7 h7) K := by
  iintro ⟨H3, H4, H5, H6, H7, Hk⟩
  iapply ((run0C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out0C_eq c i a3 h3 a4 h4 a5 h5 a6 h6 a7 h7 hc0 hc1 x w b s f6
  unfold owns; iexists _; isplitr
  swap; · iexact H7
  ipureintro; exact acc0C_eq c i a3 h3 a4 h4 a5 h5 a6 h6 a7 h7 hc0 hc1 x w b s f7

end Cert.KernelIdeal.Hand

end
-- ==== Proof.KI.R0.lean ====
/-
  The first layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.f32
local notation "SW" => S1024x1024
local notation "SB" => S1x1024
local notation "SO" => S512x1024
local notation "EO" => EltTy.bf16
local notation "SA" => S512x1024

/-! ## The schedule facts the obligation needs -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction tile the output block is idle and is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
/-- At the last contraction tile it is live. -/
theorem live0_3 : ∀ t : Fin cfg0.N, last0 (grid0.coords t) → cfg0.idle 3 (grid0.coords t) = false := by decide +kernel

/-- Each window's current staging memref at point t, as the pipeline passes it to the body, and its wholeness. -/
abbrev ms0_0 (t : Fin cfg0.N) : Memref sig .tc .vmem SX EX := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem SW .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem SB .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem SO EO := win0_3.stage (cfg0.slots t 3)
abbrev hs0_3 (t : Fin cfg0.N) : (ms0_3 t).IsWhole := hstage0_3 ((cfg0.slots t 3).cast nbuf0_3)
/-- The scratch that holds the running total. -/
abbrev scM0 : Memref sig .tc .vmem SA .f32 := Memref.whole cc0_scratch0

/-- The core's scoped buffers other than this call's staging buffers and its scratch, each at some contents. -/
abbrev others0 (c : Dev nD) : sProp 𝕄 :=
  Pipeline.scopedRestBut (Ix := Unit) (Name := ℕ) (U := UR sig nD τ) (Lvl := ℕ) (Val := Elt F) spec0 c [cc0_scratch0]

/-- What the region is handed besides its windows: the scratch at some contents, the other scoped buffers, the
    generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL]
  rfl

section
variable (V : (c : Dev nD) → (b : Ref sig .tc) → Buf (Elt F) ((c : Thread nD τ).loc b))

/-! ## The input blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point t under their literal types: the activations' tile, the weights' tile, the bias row's tile. -/
abbrev xb0 (c : Dev nD) (t : Fin cfg0.N) : Vec F SX EX := iblk0 V c 0 t
abbrev wb0 (c : Dev nD) (t : Fin cfg0.N) : Vec F SW .f32 := iblk0 V c 1 t
abbrev bb0 (c : Dev nD) (t : Fin cfg0.N) : Vec F SB .f32 := iblk0 V c 2 t

/-! ## The running total -/

/-- The scratch after point n. -/
def acc0 (c : Dev nD) : (n : ℕ) → n < cfg0.N → Vec F SA .f32
  | 0, h => k0_pay2 (xb0 V c ⟨0, h⟩) (wb0 V c ⟨0, h⟩) (k0_pay1 (F := F))
  | n + 1, h =>
    if (n + 1) % 2 = 0 then k0_pay2 (xb0 V c ⟨n + 1, h⟩) (wb0 V c ⟨n + 1, h⟩) (k0_pay1 (F := F))
    else k0_pay2 (xb0 V c ⟨n + 1, h⟩) (wb0 V c ⟨n + 1, h⟩) (acc0 c n (Nat.lt_of_succ_lt h))

/-- At a first point: one step from zero. -/
theorem acc0_first (c : Dev nD) (t : Fin cfg0.N) (h : t.val % 2 = 0) :
    acc0 V c t.val t.isLt = k0_pay2 (xb0 V c t) (wb0 V c t) (k0_pay1 (F := F)) := by
  obtain ⟨n, hn⟩ := t
  cases n with
  | zero => rfl
  | succ n => exact (if_pos h)

/-- Elsewhere: one step from the point before. -/
theorem acc0_next (c : Dev nD) (t : Fin cfg0.N) (h : ¬t.val % 2 = 0) :
    acc0 V c t.val t.isLt
      = k0_pay2 (xb0 V c t) (wb0 V c t) (acc0 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (bb0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (bb0 V c t) := by dsimp only [dat0]

/-- An input's current staging buffer holds its block at every point, fetched there or not: where it is not fetched
    its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases h0 : t.val % 2 = 0
  · -- a first point: whatever the scratch held, it is reset
    have hf : first0 (grid0.coords t) := (first0_iff t).mpr h0
    have hl : ¬last0 (grid0.coords t) := fun h => by have := (last0_iff t).mp h; omega
    rw [Dat.leavesExact_idle (dat0 V c) 3 t (idle0_3 t hl) (noFlush0_3 t hl)]
    rw [acc0_first V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (body0A c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (body0A c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first0 (grid0.coords t) := fun h => h0 ((first0_iff t).mp h)
    have hz : t.val ≠ 0 := fun h => h0 (by rw [h])
    rw [acc0_next V c t h0]
    rw [Phi0_castSucc V c t, Phi0_pos V c _ _ hz]
    by_cases h1 : t.val % 2 = 1
    · -- a last point: one more step, then the output block is written
      have hl : last0 (grid0.coords t) := (last0_iff t).mpr h1
      rw [show (dat0 V c).leavesExact 3 t = owns (c : Thread nD τ) (ms0_3 t) fullShare ((dat0 V c).after 3 t) from by
        unfold Dat.leavesExact; rw [live0_3 t hl], after0_3, acc0_next V c t h0]
      iintro ⟨⟨⟨HS, HR⟩, Hg⟩, Ho, ⟨%d0, H0⟩, ⟨%d1, H1⟩, ⟨%d2, H2⟩, ⟨%d3, H3⟩⟩
      iapply (body0C c (grid0.coords t) _ _ _ _ _ _ _ _ _ _ hf hl (xb0 V c t) (wb0 V c t) (bb0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last0 (grid0.coords t) := fun h => h1 ((last0_iff t).mp h)
      rw [Dat.leavesExact_idle (dat0 V c) 3 t (idle0_3 t hl) (noFlush0_3 t hl)]
      iintro ⟨⟨⟨HS, HR⟩, Hg⟩, Ho, ⟨%d0, H0⟩, ⟨%d1, H1⟩, ⟨%d2, H2⟩, ⟨%d3, H3⟩⟩
      iapply (body0B c (grid0.coords t) _ _ _ _ _ _ _ _ _ _ hf hl (xb0 V c t) (wb0 V c t) (bb0 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back, the total forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; decide), PhiA0_eq]
  iintro ⟨⟨HS, HR⟩, Hg⟩
  isplitl [HS HR]
  · isplitl [HS]
    · iexists _; iexact HS
    iexact HR
  iexact Hg

end

end Cert.KernelIdeal.Hand

end
-- ==== Proof.KI.R1Runs.lean ====
/-
  The body of the second layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.KernelIdeal.Launch
import proofs.«147035_j70592082477120_1_alg».proof.Proof.Gen.KernelIdeal.Skeleton
import proofs.«147035_j70592082477120_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1024
local notation "SB" => S1x1024
local notation "SO" => S512x1024
local notation "EO" => EltTy.bf16
local notation "SA" => S512x1024

/-! ## Which kind a point is of -/

/-- The kernel's test "contraction tile is the first one", as it computes it from the grid coordinates. -/
abbrev first1 (i : grid1.Coords) : Prop := (Scalar.cmpi .ne (Scalar.extui (Scalar.cmpi .eq (BitVec.ofNat 32 (i 2).val) 0#32)) 0#32) = 1#1
/-- It holds exactly at the points whose position is a multiple of the number of contraction tiles. -/
theorem first1_iff : ∀ t : Fin cfg1.N, first1 (grid1.coords t) ↔ t.val % 4 = 0 :=
  (by decide +kernel : ∀ t : Fin grid1.N, first1 (grid1.coords t) ↔ t.val % 4 = 0)
/-- The kernel's test "contraction tile is the last one". -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-- The offsets of every whole-buffer access are zero. -/
theorem zoff1 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, fun b o E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (y : Shape.Idx SA) :
    ∃ pc ∈ (run1A c i a3 h3 a4 h4 a5 h5 a6 h6 a7 h7 hc0 hc1 x w).1, y ∈ pc.1.set :=
  View.cover_of_tiledL (run1A c i a3 h3 a4 h4 a5 h5 a6 h6 a7 h7 hc0 hc1 x w).1 (Shape.size SA) (by sl_kernel_rfl) y

/-- Read back, they are one step from the zero total: the later store covers the reset, and the total it adds to is
    the reset's value read back. -/
theorem acc1A_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (f : _) :
    a7.view.read (Elt F) (a7.view.writes (Elt F) f (run1A c i a3 h3 a4 h4 a5 h5 a6 h6 a7 h7 hc0 hc1 x w).1)
      = k1_pay2 x w (k1_pay1 (F := F)) := by
  rw [View.read_writes_eq_canon _ _ _ (cover1A c i a3 h3 a4 h4 a5 h5 a6 h6 a7 h7 hc0 hc1 x w)]
  unfold run1A; dsimp only; sl_unfold_words
  rw [View.canon_cons_unit_zero (S := SA) zoff1, View.readCov_unit_zero (S := SA) _ zoff1]
  simp only [View.readAt_eq_ld, h3.read_unread, h4.read_unread, View.ld_unit_zero (S := SX) zoff1, View.ld_unit_zero (S := SA) zoff1, View.ld_unit_zero (S := SW) zoff1]

/-- THE BODY AT A FIRST POINT. -/
theorem body1A (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first1 i) (hc1 : ¬last1 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k1_pay2 x w (k1_pay1 (F := F)))) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc1A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, fun b o E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) (y : Shape.Idx SA) :
    ∃ pc ∈ (run1B c i a3 h3 a4 h4 a5 h5 a6 h6 a7 h7 hc0 hc1 x w s).1, y ∈ pc.1.set :=
  View.cover_of_tiledL (run1B c i a3 h3 a4 h4 a5 h5 a6 h6 a7 h7 hc0 hc1 x w s).1 (Shape.size SA) (by sl_kernel_rfl) y

/-- Read back: one step from the total the point started from. -/
theorem acc1B_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (s : Vec F SA .f32) (f : _) :
    a7.view.read (Elt F) (a7.view.writes (Elt F) f (run1B c i a3 h3 a4 h4 a5 h5 a6 h6 a7 h7 hc0 hc1 x w s).1)
      = k1_pay2 x w s := by
  rw [View.read_writes_eq_canon _ _ _ (cover1B c i a3 h3 a4 h4 a5 h5 a6 h6 a7 h7 hc0 hc1 x w s)]
  unfold run1B; dsimp only; sl_unfold_words
  rw [View.canon_unit_zero (S := SA) zoff1]
  simp only [View.readAt_eq_ld, h3.read_unread, h4.read_unread, h7.read_unread, View.ld_unit_zero (S := SX) zoff1, View.ld_unit_zero (S := SA) zoff1, View.ld_unit_zero (S := SW) zoff1]

/-- THE BODY AT A MIDDLE POINT. -/
theorem body1B (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : ¬last1 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k1_pay2 x w s)) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc1B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run1C (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc1__lambda_ i a3 h3 a4 h4 a5 h5 a6 h6 a7 h7) K } := by
  refine ⟨?_, ?_, fun E K => ?run⟩
  case run =>
    simp only [cc1__lambda__eq_skeleton]; unfold cc1__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover1C_out (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (y : Shape.Idx SA) :
    ∃ pc ∈ (run1C c i a3 h3 a4 h4 a5 h5 a6 h6 a7 h7 hc0 hc1 x w b s).1, y ∈ pc.1.set :=
  View.cover_of_tiledL (run1C c i a3 h3 a4 h4 a5 h5 a6 h6 a7 h7 hc0 hc1 x w b s).1 (Shape.size SA) (by sl_kernel_rfl) y

theorem cover1C_acc (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (y : Shape.Idx SA) :
    ∃ pc ∈ (run1C c i a3 h3 a4 h4 a5 h5 a6 h6 a7 h7 hc0 hc1 x w b s).2.1, y ∈ pc.1.set :=
  View.cover_of_tiledL (run1C c i a3 h3 a4 h4 a5 h5 a6 h6 a7 h7 hc0 hc1 x w b s).2.1 (Shape.size SA) (by sl_kernel_rfl) y

/-- Read back, the scratch is one step from the total the point started from. -/
theorem acc1C_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (f : _) :
    a7.view.read (Elt F) (a7.view.writes (Elt F) f (run1C c i a3 h3 a4 h4 a5 h5 a6 h6 a7 h7 hc0 hc1 x w b s).2.1)
      = k1_pay2 x w s := by
  rw [View.read_writes_eq_canon _ _ _ (cover1C_acc c i a3 h3 a4 h4 a5 h5 a6 h6 a7 h7 hc0 hc1 x w b s)]
  unfold run1C; dsimp only; sl_unfold_words
  rw [View.canon_unit_zero (S := SA) zoff1]
  simp only [View.readAt_eq_ld, h3.read_unread, h4.read_unread, h7.read_unread, View.ld_unit_zero (S := SX) zoff1, View.ld_unit_zero (S := SA) zoff1, View.ld_unit_zero (S := SW) zoff1]

/-- Read back, the output block is the finished total: the total it finishes is the one just stored, read back. -/
theorem out1C_eq (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32) (s : Vec F SA .f32) (f : _) :
    a6.view.read (Elt F) (a6.view.writes (Elt F) f (run1C c i a3 h3 a4 h4 a5 h5 a6 h6 a7 h7 hc0 hc1 x w b s).1)
      = k1_pay3 (k1_pay2 x w s) b := by
  rw [View.read_writes_eq_canon _ _ _ (cover1C_out c i a3 h3 a4 h4 a5 h5 a6 h6 a7 h7 hc0 hc1 x w b s)]
  unfold run1C; dsimp only; sl_unfold_words
  rw [View.canon_unit_zero (S := SA) zoff1]
  simp only [View.readCov_unit_zero (S := SA) _ zoff1, View.readAt_eq_ld, h3.read_unread, h4.read_unread, h5.read_unread, h7.read_unread,
    View.ld_unit_zero (S := SX) zoff1, View.ld_unit_zero (S := SA) zoff1, View.ld_unit_zero (S := SW) zoff1, View.ld_unit_zero (S := SB) zoff1]

/-- THE BODY AT A LAST POINT. -/
theorem body1C (c : Dev nD) (i : grid1.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first1 i) (hc1 : last1 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k1_pay3 (k1_pay2 x w s) b) ∗ owns (c : Thread nD τ) a7 fullShare (k1_pay2 x w s)) -∗ K ⟨⟩))
      ⊢ wp frame (wpE (defs₀ (F := F)) Variants.none c none) E (cc1__lambda_ i a3 h3 a4 h4 a5 h5 a6 h6 a7 h7) K := by
  iintro ⟨H3, H4, H5, H6, H7, Hk⟩
  iapply ((run1C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out1C_eq c i a3 h3 a4 h4 a5 h5 a6 h6 a7 h7 hc0 hc1 x w b s f6
  unfold owns; iexists _; isplitr
  swap; · iexact H7
  ipureintro; exact acc1C_eq c i a3 h3 a4 h4 a5 h5 a6 h6 a7 h7 hc0 hc1 x w b s f7

end Cert.KernelIdeal.Hand

end
-- ==== Proof.KI.R1.lean ====
/-
  The second layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1024
local notation "SB" => S1x1024
local notation "SO" => S512x1024
local notation "EO" => EltTy.bf16
local notation "SA" => S512x1024

/-! ## The schedule facts the obligation needs -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction tile the output block is idle and is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
/-- At the last contraction tile it is live. -/
theorem live1_3 : ∀ t : Fin cfg1.N, last1 (grid1.coords t) → cfg1.idle 3 (grid1.coords t) = false := by decide +kernel

/-- Each window's current staging memref at point t, as the pipeline passes it to the body, and its wholeness. -/
abbrev ms1_0 (t : Fin cfg1.N) : Memref sig .tc .vmem SX EX := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem SW .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem SB .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem SO EO := win1_3.stage (cfg1.slots t 3)
abbrev hs1_3 (t : Fin cfg1.N) : (ms1_3 t).IsWhole := hstage1_3 ((cfg1.slots t 3).cast nbuf1_3)
/-- The scratch that holds the running total. -/
abbrev scM1 : Memref sig .tc .vmem SA .f32 := Memref.whole cc1_scratch0

/-- The core's scoped buffers other than this call's staging buffers and its scratch, each at some contents. -/
abbrev others1 (c : Dev nD) : sProp 𝕄 :=
  Pipeline.scopedRestBut (Ix := Unit) (Name := ℕ) (U := UR sig nD τ) (Lvl := ℕ) (Val := Elt F) spec1 c [cc1_scratch0]

/-- What the region is handed besides its windows: the scratch at some contents, the other scoped buffers, the
    generator register. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL]
  rfl

section
variable (V : (c : Dev nD) → (b : Ref sig .tc) → Buf (Elt F) ((c : Thread nD τ).loc b))

/-! ## The input blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point t under their literal types: the activations' tile, the weights' tile, the bias row's tile. -/
abbrev xb1 (c : Dev nD) (t : Fin cfg1.N) : Vec F SX EX := iblk1 V c 0 t
abbrev wb1 (c : Dev nD) (t : Fin cfg1.N) : Vec F SW .f32 := iblk1 V c 1 t
abbrev bb1 (c : Dev nD) (t : Fin cfg1.N) : Vec F SB .f32 := iblk1 V c 2 t

/-! ## The running total -/

/-- The scratch after point n. -/
def acc1 (c : Dev nD) : (n : ℕ) → n < cfg1.N → Vec F SA .f32
  | 0, h => k1_pay2 (xb1 V c ⟨0, h⟩) (wb1 V c ⟨0, h⟩) (k1_pay1 (F := F))
  | n + 1, h =>
    if (n + 1) % 4 = 0 then k1_pay2 (xb1 V c ⟨n + 1, h⟩) (wb1 V c ⟨n + 1, h⟩) (k1_pay1 (F := F))
    else k1_pay2 (xb1 V c ⟨n + 1, h⟩) (wb1 V c ⟨n + 1, h⟩) (acc1 c n (Nat.lt_of_succ_lt h))

/-- At a first point: one step from zero. -/
theorem acc1_first (c : Dev nD) (t : Fin cfg1.N) (h : t.val % 4 = 0) :
    acc1 V c t.val t.isLt = k1_pay2 (xb1 V c t) (wb1 V c t) (k1_pay1 (F := F)) := by
  obtain ⟨n, hn⟩ := t
  cases n with
  | zero => rfl
  | succ n => exact (if_pos h)

/-- Elsewhere: one step from the point before. -/
theorem acc1_next (c : Dev nD) (t : Fin cfg1.N) (h : ¬t.val % 4 = 0) :
    acc1 V c t.val t.isLt
      = k1_pay2 (xb1 V c t) (wb1 V c t) (acc1 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (bb1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (bb1 V c t) := by dsimp only [dat1]

/-- An input's current staging buffer holds its block at every point, fetched there or not: where it is not fetched
    its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 4 = 0
  · -- a first point: whatever the scratch held, it is reset
    have hf : first1 (grid1.coords t) := (first1_iff t).mpr h0
    have hl : ¬last1 (grid1.coords t) := fun h => by have := (last1_iff t).mp h; omega
    rw [Dat.leavesExact_idle (dat1 V c) 3 t (idle1_3 t hl) (noFlush1_3 t hl)]
    rw [acc1_first V c t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (body1A c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (body1A c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first1 (grid1.coords t) := fun h => h0 ((first1_iff t).mp h)
    have hz : t.val ≠ 0 := fun h => h0 (by rw [h])
    rw [acc1_next V c t h0]
    rw [Phi1_castSucc V c t, Phi1_pos V c _ _ hz]
    by_cases h1 : t.val % 4 = 3
    · -- a last point: one more step, then the output block is written
      have hl : last1 (grid1.coords t) := (last1_iff t).mpr h1
      rw [show (dat1 V c).leavesExact 3 t = owns (c : Thread nD τ) (ms1_3 t) fullShare ((dat1 V c).after 3 t) from by
        unfold Dat.leavesExact; rw [live1_3 t hl], after1_3, acc1_next V c t h0]
      iintro ⟨⟨⟨HS, HR⟩, Hg⟩, Ho, ⟨%d0, H0⟩, ⟨%d1, H1⟩, ⟨%d2, H2⟩, ⟨%d3, H3⟩⟩
      iapply (body1C c (grid1.coords t) _ _ _ _ _ _ _ _ _ _ hf hl (xb1 V c t) (wb1 V c t) (bb1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last1 (grid1.coords t) := fun h => h1 ((last1_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (body1B c (grid1.coords t) _ _ _ _ _ _ _ _ _ _ hf hl (xb1 V c t) (wb1 V c t) (bb1 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back, the total forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; decide), PhiA1_eq]
  iintro ⟨⟨HS, HR⟩, Hg⟩
  isplitl [HS HR]
  · isplitl [HS]
    · iexists _; iexact HS
    iexact HR
  iexact Hg

end

end Cert.KernelIdeal.Hand

end
-- ==== Proof.KI.R2Runs.lean ====
/-
  The body of the third layer's kernel, run once per kind of grid point.

  The kernel walks a grid (row tile, column tile, contraction tile). Along the contraction axis it keeps a running
  total in a scratch buffer: at the first contraction tile the total is reset to zero and the tile's product added,
  at every later tile the product is added to what the tile before left, and at the last tile the bias row is added,
  the result clamped below at zero and stored into the output block. So a point is of one of three kinds — first,
  middle, last — and the body's effect on the scratch and on the output block is stated for each kind as a function of
  the three input blocks and of the scratch contents the point starts from:
    first :  scratch := step x w zero                       output block untouched
    middle:  scratch := step x w s                          output block untouched
    last  :  scratch := step x w s,   output := finish (step x w s) b
  where step and finish are the kernel's own arithmetic (the payload terms of its two stores).
-/
import proofs.«147035_j70592082477120_1_alg».proof.Proof.Gen.KernelIdeal.Launch
import proofs.«147035_j70592082477120_1_alg».proof.Proof.Gen.KernelIdeal.Skeleton
import proofs.«147035_j70592082477120_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1000
local notation "SB" => S1x1000
local notation "SO" => S512x1000
local notation "EO" => EltTy.f32
local notation "SA" => S512x1000

/-! ## Which kind a point is of -/

/-- The kernel's test "contraction tile is the first one", as it computes it from the grid coordinates. -/
abbrev first2 (i : grid2.Coords) : Prop := (Scalar.cmpi .ne (Scalar.extui (Scalar.cmpi .eq (BitVec.ofNat 32 (i 2).val) 0#32)) 0#32) = 1#1
/-- It holds exactly at the points whose position is a multiple of the number of contraction tiles. -/
theorem first2_iff : ∀ t : Fin cfg2.N, first2 (grid2.coords t) ↔ t.val % 4 = 0 :=
  (by decide +kernel : ∀ t : Fin grid2.N, first2 (grid2.coords t) ↔ t.val % 4 = 0)
/-- The kernel's test "contraction tile is the last one". -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- The offsets of every whole-buffer access are zero. -/
theorem zoff2 : (![0, 0] : Fin 2 → Nat) = fun _ => 0 := by
  funext a; fin_cases a <;> rfl

/-! ## First contraction tile: the scratch is reset, then the product added -/

set_option maxHeartbeats 4000000 in
/-- The pieces the body's stores leave in the scratch at a first point, with the run that finds them. -/
noncomputable def run2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ (∃ s, owns (c : Thread nD τ) a7 fullShare s)
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, fun b o E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%f6, %hf6, H6⟩, ⟨%s, %f7, %hf7, H7⟩, Hk⟩
    obtain rfl := h3.eq_unread hf3; obtain rfl := h4.eq_unread hf4; obtain rfl := h5.eq_unread hf5; obtain rfl := h6.eq_unread hf6
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

/-- Those pieces cover the scratch. -/
theorem cover2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (y : Shape.Idx SA) :
    ∃ pc ∈ (run2A c i a3 h3 a4 h4 a5 h5 a6 h6 a7 h7 hc0 hc1 x w).1, y ∈ pc.1.set :=
  View.cover_of_tiledL (run2A c i a3 h3 a4 h4 a5 h5 a6 h6 a7 h7 hc0 hc1 x w).1 (Shape.size SA) (by sl_kernel_rfl) y

/-- Read back, they are one step from the zero total: the later store covers the reset, and the total it adds to is
    the reset's value read back. -/
theorem acc2A_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (f : _) :
    a7.view.read (Elt F) (a7.view.writes (Elt F) f (run2A c i a3 h3 a4 h4 a5 h5 a6 h6 a7 h7 hc0 hc1 x w).1)
      = k2_pay2 x w (k2_pay1 (F := F)) := by
  rw [View.read_writes_eq_canon _ _ _ (cover2A c i a3 h3 a4 h4 a5 h5 a6 h6 a7 h7 hc0 hc1 x w)]
  unfold run2A; dsimp only; sl_unfold_words
  rw [View.canon_cons_unit_zero (S := SA) zoff2, View.readCov_unit_zero (S := SA) _ zoff2]
  simp only [View.readAt_eq_ld, h3.read_unread, h4.read_unread, View.ld_unit_zero (S := SX) zoff2, View.ld_unit_zero (S := SA) zoff2, View.ld_unit_zero (S := SW) zoff2]

/-- THE BODY AT A FIRST POINT. -/
theorem body2A (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : first2 i) (hc1 : ¬last2 i)
    (x : Vec F SX EX) (w : Vec F SW .f32) (b : Vec F SB .f32) (o : Vec F SO EO)
    (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ (∃ s, owns (c : Thread nD τ) a7 fullShare s)
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k2_pay2 x w (k2_pay1 (F := F)))) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2A c i a3 h3 a4 h4 a5 h5 a6 h6 a7 h7 hc0 hc1 x w).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc2A_eq c i a3 h3 a4 h4 a5 h5 a6 h6 a7 h7 hc0 hc1 x w f

/-! ## A middle contraction tile: the product is added to the running total -/

set_option maxHeartbeats 4000000 in
/-- The pieces the body's stores leave in the scratch at a middle point, with the run that finds them. -/
noncomputable def run2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) :
    { LS : List (View.Piece (Elt F) SA .f32) //
      ∀ (b : Vec F SB .f32) (o : Vec F SO EO) (E : Set ℕ) (K : PUnit → sProp 𝕄),
        iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare s
            ∗ (iprop(owns (c : Thread nD τ) a3 fullShare x ∗ owns (c : Thread nD τ) a4 fullShare w ∗ owns (c : Thread nD τ) a5 fullShare b
                ∗ owns (c : Thread nD τ) a6 fullShare o
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, fun b o E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%f6, %hf6, H6⟩, ⟨%f7, %hf7, H7⟩, Hk⟩
    obtain rfl := h3.eq_unread hf3; obtain rfl := h4.eq_unread hf4; obtain rfl := h5.eq_unread hf5; obtain rfl := h6.eq_unread hf6
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

theorem cover2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) (y : Shape.Idx SA) :
    ∃ pc ∈ (run2B c i a3 h3 a4 h4 a5 h5 a6 h6 a7 h7 hc0 hc1 x w s).1, y ∈ pc.1.set :=
  View.cover_of_tiledL (run2B c i a3 h3 a4 h4 a5 h5 a6 h6 a7 h7 hc0 hc1 x w s).1 (Shape.size SA) (by sl_kernel_rfl) y

/-- Read back: one step from the total the point started from. -/
theorem acc2B_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (s : Vec F SA .f32) (f : _) :
    a7.view.read (Elt F) (a7.view.writes (Elt F) f (run2B c i a3 h3 a4 h4 a5 h5 a6 h6 a7 h7 hc0 hc1 x w s).1)
      = k2_pay2 x w s := by
  rw [View.read_writes_eq_canon _ _ _ (cover2B c i a3 h3 a4 h4 a5 h5 a6 h6 a7 h7 hc0 hc1 x w s)]
  unfold run2B; dsimp only; sl_unfold_words
  rw [View.canon_unit_zero (S := SA) zoff2]
  simp only [View.readAt_eq_ld, h3.read_unread, h4.read_unread, h7.read_unread, View.ld_unit_zero (S := SX) zoff2, View.ld_unit_zero (S := SA) zoff2, View.ld_unit_zero (S := SW) zoff2]

/-- THE BODY AT A MIDDLE POINT. -/
theorem body2B (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : ¬last2 i)
    (x : Vec F SX EX) (w : Vec F SW .f32) (b : Vec F SB .f32) (o : Vec F SO EO)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare o ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare o ∗ owns (c : Thread nD τ) a7 fullShare (k2_pay2 x w s)) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2B c i a3 h3 a4 h4 a5 h5 a6 h6 a7 h7 hc0 hc1 x w s).2 b o E K)
  isplitl [H3]; · iexact H3
  isplitl [H4]; · iexact H4
  isplitl [H5]; · iexact H5
  isplitl [H6]; · iexact H6
  isplitl [H7]; · iexact H7
  iintro ⟨H3, H4, H5, H6, ⟨%f, H7⟩⟩
  iapply Hk
  isplitl [H3]; · iexact H3
  isplitl [H4]; · iexact H4
  isplitl [H5]; · iexact H5
  isplitl [H6]; · iexact H6
  unfold owns; iexists _; isplitr
  swap; · iexact H7
  ipureintro; exact acc2B_eq c i a3 h3 a4 h4 a5 h5 a6 h6 a7 h7 hc0 hc1 x w s f

/-! ## The last contraction tile: the product is added, then the output block is written -/

set_option maxHeartbeats 4000000 in
/-- The pieces the body's stores leave in the output block and in the scratch at a last point, with the run that finds them. -/
noncomputable def run2C (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) :
    Σ' (LO : List (View.Piece (Elt F) SO EO)), { LS : List (View.Piece (Elt F) SA .f32) //
      ∀ (E : Set ℕ) (K : PUnit → sProp 𝕄),
        iprop(owns (c : Thread nD τ) a3 fullShare x ∗ owns (c : Thread nD τ) a4 fullShare w ∗ owns (c : Thread nD τ) a5 fullShare b
            ∗ (∃ o, owns (c : Thread nD τ) a6 fullShare o) ∗ owns (c : Thread nD τ) a7 fullShare s
            ∗ (iprop(owns (c : Thread nD τ) a3 fullShare x ∗ owns (c : Thread nD τ) a4 fullShare w ∗ owns (c : Thread nD τ) a5 fullShare b
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc2__lambda_ i a3 h3 a4 h4 a5 h5 a6 h6 a7 h7) K } := by
  refine ⟨?_, ?_, fun E K => ?run⟩
  case run =>
    simp only [cc2__lambda__eq_skeleton]; unfold cc2__lambda__skel
    unfold owns
    iintro ⟨⟨%f3, %hf3, H3⟩, ⟨%f4, %hf4, H4⟩, ⟨%f5, %hf5, H5⟩, ⟨%o, %f6, %hf6, H6⟩, ⟨%f7, %hf7, H7⟩, Hk⟩
    obtain rfl := h3.eq_unread hf3; obtain rfl := h4.eq_unread hf4; obtain rfl := h5.eq_unread hf5
    obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    iexists _; iexact H7

theorem cover2C_out (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (y : Shape.Idx SA) :
    ∃ pc ∈ (run2C c i a3 h3 a4 h4 a5 h5 a6 h6 a7 h7 hc0 hc1 x w b s).1, y ∈ pc.1.set :=
  View.cover_of_tiledL (run2C c i a3 h3 a4 h4 a5 h5 a6 h6 a7 h7 hc0 hc1 x w b s).1 (Shape.size SA) (by sl_kernel_rfl) y

theorem cover2C_acc (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (y : Shape.Idx SA) :
    ∃ pc ∈ (run2C c i a3 h3 a4 h4 a5 h5 a6 h6 a7 h7 hc0 hc1 x w b s).2.1, y ∈ pc.1.set :=
  View.cover_of_tiledL (run2C c i a3 h3 a4 h4 a5 h5 a6 h6 a7 h7 hc0 hc1 x w b s).2.1 (Shape.size SA) (by sl_kernel_rfl) y

/-- Read back, the scratch is one step from the total the point started from. -/
theorem acc2C_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (f : _) :
    a7.view.read (Elt F) (a7.view.writes (Elt F) f (run2C c i a3 h3 a4 h4 a5 h5 a6 h6 a7 h7 hc0 hc1 x w b s).2.1)
      = k2_pay2 x w s := by
  rw [View.read_writes_eq_canon _ _ _ (cover2C_acc c i a3 h3 a4 h4 a5 h5 a6 h6 a7 h7 hc0 hc1 x w b s)]
  unfold run2C; dsimp only; sl_unfold_words
  rw [View.canon_unit_zero (S := SA) zoff2]
  simp only [View.readAt_eq_ld, h3.read_unread, h4.read_unread, h7.read_unread, View.ld_unit_zero (S := SX) zoff2, View.ld_unit_zero (S := SA) zoff2, View.ld_unit_zero (S := SW) zoff2]

/-- Read back, the output block is the finished total: the total it finishes is the one just stored, read back. -/
theorem out2C_eq (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32) (s : Vec F SA .f32) (f : _) :
    a6.view.read (Elt F) (a6.view.writes (Elt F) f (run2C c i a3 h3 a4 h4 a5 h5 a6 h6 a7 h7 hc0 hc1 x w b s).1)
      = k2_pay3 (k2_pay2 x w s) b := by
  rw [View.read_writes_eq_canon _ _ _ (cover2C_out c i a3 h3 a4 h4 a5 h5 a6 h6 a7 h7 hc0 hc1 x w b s)]
  unfold run2C; dsimp only; sl_unfold_words
  rw [View.canon_unit_zero (S := SA) zoff2]
  simp only [View.readCov_unit_zero (S := SA) _ zoff2, View.readAt_eq_ld, h3.read_unread, h4.read_unread, h5.read_unread, h7.read_unread,
    View.ld_unit_zero (S := SX) zoff2, View.ld_unit_zero (S := SA) zoff2, View.ld_unit_zero (S := SW) zoff2, View.ld_unit_zero (S := SB) zoff2]

/-- THE BODY AT A LAST POINT. -/
theorem body2C (c : Dev nD) (i : grid2.Coords)
    (a3 : Memref sig .tc .vmem SX EX) (h3 : a3.IsWhole) (a4 : Memref sig .tc .vmem SW .f32) (h4 : a4.IsWhole)
    (a5 : Memref sig .tc .vmem SB .f32) (h5 : a5.IsWhole) (a6 : Memref sig .tc .vmem SO EO) (h6 : a6.IsWhole)
    (a7 : Memref sig .tc .vmem SA .f32) (h7 : a7.IsWhole) (hc0 : ¬first2 i) (hc1 : last2 i)
    (x : Vec F SX EX) (w : Vec F SW .f32) (b : Vec F SB .f32)
    (s : Vec F SA .f32) (E : Set ℕ) (K : PUnit → sProp 𝕄) :
    iprop(owns (c : Thread nD τ) a3 fullShare x ∗ owns (c : Thread nD τ) a4 fullShare w ∗ owns (c : Thread nD τ) a5 fullShare b
        ∗ (∃ o, owns (c : Thread nD τ) a6 fullShare o) ∗ owns (c : Thread nD τ) a7 fullShare s
        ∗ (iprop(owns (c : Thread nD τ) a3 fullShare x ∗ owns (c : Thread nD τ) a4 fullShare w ∗ owns (c : Thread nD τ) a5 fullShare b
            ∗ owns (c : Thread nD τ) a6 fullShare (k2_pay3 (k2_pay2 x w s) b) ∗ owns (c : Thread nD τ) a7 fullShare (k2_pay2 x w s)) -∗ K ⟨⟩))
      ⊢ wp frame (wpE (defs₀ (F := F)) Variants.none c none) E (cc2__lambda_ i a3 h3 a4 h4 a5 h5 a6 h6 a7 h7) K := by
  iintro ⟨H3, H4, H5, H6, H7, Hk⟩
  iapply ((run2C c i a3 h3 a4 h4 a5 h5 a6 h6 a7 h7 hc0 hc1 x w b s).2.2 E K)
  isplitl [H3]; · iexact H3
  isplitl [H4]; · iexact H4
  isplitl [H5]; · iexact H5
  isplitl [H6]; · iexact H6
  isplitl [H7]; · iexact H7
  iintro ⟨H3, H4, H5, ⟨%f6, H6⟩, ⟨%f7, H7⟩⟩
  iapply Hk
  isplitl [H3]; · iexact H3
  isplitl [H4]; · iexact H4
  isplitl [H5]; · iexact H5
  isplitl [H6]
  · unfold owns; iexists _; isplitr
    swap; · iexact H6
    ipureintro; exact out2C_eq c i a3 h3 a4 h4 a5 h5 a6 h6 a7 h7 hc0 hc1 x w b s f6
  unfold owns; iexists _; isplitr
  swap; · iexact H7
  ipureintro; exact acc2C_eq c i a3 h3 a4 h4 a5 h5 a6 h6 a7 h7 hc0 hc1 x w b s f7

end Cert.KernelIdeal.Hand

end
-- ==== Proof.KI.R2.lean ====
/-
  The third layer's kernel over its whole grid: what the scratch and the output block hold after every point.

  The running total after point n is defined by recursion on n: at a point whose position is a multiple of the
  number of contraction tiles it is one step from the zero total, elsewhere one step from the total of the point
  before. The invariant carried from point to point is "the scratch holds the total of the point before" (before
  the first point: anything). With it the body's three runs (first, middle, last) give the obligation the pipeline
  asks at every point: inputs handed back as found, the scratch at the new total, and the output block either
  untouched (first and middle points, where it is idle and not written back) or at the finished total (last points).
-/
import proofs.«147035_j70592082477120_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the shapes and element types of this layer's tiles: activations, weights, bias row, output block, running total
local notation "SX" => S512x1024
local notation "EX" => EltTy.bf16
local notation "SW" => S1024x1000
local notation "SB" => S1x1000
local notation "SO" => S512x1000
local notation "EO" => EltTy.f32
local notation "SA" => S512x1000

/-! ## The schedule facts the obligation needs -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last contraction tile the output block is idle and is not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
/-- At the last contraction tile it is live. -/
theorem live2_3 : ∀ t : Fin cfg2.N, last2 (grid2.coords t) → cfg2.idle 3 (grid2.coords t) = false := by decide +kernel

/-- Each window's current staging memref at point t, as the pipeline passes it to the body, and its wholeness. -/
abbrev ms2_0 (t : Fin cfg2.N) : Memref sig .tc .vmem SX EX := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem SW .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem SB .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem SO EO := win2_3.stage (cfg2.slots t 3)
abbrev hs2_3 (t : Fin cfg2.N) : (ms2_3 t).IsWhole := hstage2_3 ((cfg2.slots t 3).cast nbuf2_3)
/-- The scratch that holds the running total. -/
abbrev scM2 : Memref sig .tc .vmem SA .f32 := Memref.whole cc2_scratch0

/-- The core's scoped buffers other than this call's staging buffers and its scratch, each at some contents. -/
abbrev others2 (c : Dev nD) : sProp 𝕄 :=
  Pipeline.scopedRestBut (Ix := Unit) (Name := ℕ) (U := UR sig nD τ) (Lvl := ℕ) (Val := Elt F) spec2 c [cc2_scratch0]

/-- What the region is handed besides its windows: the scratch at some contents, the other scoped buffers, the
    generator register. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [scM2, owns_whole, bigSepL]
  rfl

section
variable (V : (c : Dev nD) → (b : Ref sig .tc) → Buf (Elt F) ((c : Thread nD τ).loc b))

/-! ## The input blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The three input blocks at point t under their literal types: the activations' tile, the weights' tile, the bias row's tile. -/
abbrev xb2 (c : Dev nD) (t : Fin cfg2.N) : Vec F SX EX := iblk2 V c 0 t
abbrev wb2 (c : Dev nD) (t : Fin cfg2.N) : Vec F SW .f32 := iblk2 V c 1 t
abbrev bb2 (c : Dev nD) (t : Fin cfg2.N) : Vec F SB .f32 := iblk2 V c 2 t

/-! ## The running total -/

/-- The scratch after point n. -/
def acc2 (c : Dev nD) : (n : ℕ) → n < cfg2.N → Vec F SA .f32
  | 0, h => k2_pay2 (xb2 V c ⟨0, h⟩) (wb2 V c ⟨0, h⟩) (k2_pay1 (F := F))
  | n + 1, h =>
    if (n + 1) % 4 = 0 then k2_pay2 (xb2 V c ⟨n + 1, h⟩) (wb2 V c ⟨n + 1, h⟩) (k2_pay1 (F := F))
    else k2_pay2 (xb2 V c ⟨n + 1, h⟩) (wb2 V c ⟨n + 1, h⟩) (acc2 c n (Nat.lt_of_succ_lt h))

/-- At a first point: one step from zero. -/
theorem acc2_first (c : Dev nD) (t : Fin cfg2.N) (h : t.val % 4 = 0) :
    acc2 V c t.val t.isLt = k2_pay2 (xb2 V c t) (wb2 V c t) (k2_pay1 (F := F)) := by
  obtain ⟨n, hn⟩ := t
  cases n with
  | zero => rfl
  | succ n => exact (if_pos h)

/-- Elsewhere: one step from the point before. -/
theorem acc2_next (c : Dev nD) (t : Fin cfg2.N) (h : ¬t.val % 4 = 0) :
    acc2 V c t.val t.isLt
      = k2_pay2 (xb2 V c t) (wb2 V c t) (acc2 V c (t.val - 1) (Nat.lt_of_le_of_lt (Nat.sub_le _ _) t.isLt)) := by
  obtain ⟨n, hn⟩ := t
  cases n with
  | zero => exact absurd (Nat.zero_mod _) h
  | succ n => exact (if_neg h)

/-! ## The invariant -/

/-- Before point n: at the start whatever the region was handed; afterwards the scratch at the total of the point before. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-! ## The pipeline's proof data -/

/-- After the body at point t: each input's buffer at its block, the output's at the finished total of that point
    (read only at last points: elsewhere the block is idle). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (bb2 V c t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (bb2 V c t) := by dsimp only [dat2]

/-- An input's current staging buffer holds its block at every point, fetched there or not: where it is not fetched
    its block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  by_cases h0 : t.val % 4 = 0
  · -- a first point: whatever the scratch held, it is reset
    have hf : first2 (grid2.coords t) := (first2_iff t).mpr h0
    have hl : ¬last2 (grid2.coords t) := fun h => by have := (last2_iff t).mp h; omega
    rw [Dat.leavesExact_idle (dat2 V c) 3 t (idle2_3 t hl) (noFlush2_3 t hl)]
    rw [acc2_first V c t h0]
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩, ⟨%d3, H3⟩⟩
      iapply (body2A c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (body2A c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬first2 (grid2.coords t) := fun h => h0 ((first2_iff t).mp h)
    have hz : t.val ≠ 0 := fun h => h0 (by rw [h])
    rw [acc2_next V c t h0]
    rw [Phi2_castSucc V c t, Phi2_pos V c _ _ hz]
    by_cases h1 : t.val % 4 = 3
    · -- a last point: one more step, then the output block is written
      have hl : last2 (grid2.coords t) := (last2_iff t).mpr h1
      rw [show (dat2 V c).leavesExact 3 t = owns (c : Thread nD τ) (ms2_3 t) fullShare ((dat2 V c).after 3 t) from by
        unfold Dat.leavesExact; rw [live2_3 t hl], after2_3, acc2_next V c t h0]
      iintro ⟨⟨⟨HS, HR⟩, Hg⟩, Ho, ⟨%d0, H0⟩, ⟨%d1, H1⟩, ⟨%d2, H2⟩, ⟨%d3, H3⟩⟩
      iapply (body2C c (grid2.coords t) _ _ _ _ _ _ _ _ _ _ hf hl (xb2 V c t) (wb2 V c t) (bb2 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point: one more step, the output block untouched
      have hl : ¬last2 (grid2.coords t) := fun h => h1 ((last2_iff t).mp h)
      rw [Dat.leavesExact_idle (dat2 V c) 3 t (idle2_3 t hl) (noFlush2_3 t hl)]
      iintro ⟨⟨⟨HS, HR⟩, Hg⟩, Ho, ⟨%d0, H0⟩, ⟨%d1, H1⟩, ⟨%d2, H2⟩, ⟨%d3, H3⟩⟩
      iapply (body2B c (grid2.coords t) _ _ _ _ _ _ _ _ _ _ hf hl (xb2 V c t) (wb2 V c t) (bb2 V c t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back, the total forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; decide), PhiA2_eq]
  iintro ⟨⟨HS, HR⟩, Hg⟩
  isplitl [HS HR]
  · isplitl [HS]
    · iexists _; iexact HS
    iexact HR
  iexact Hg

end

end Cert.KernelIdeal.Hand

end
-- ==== Proof.KI.Main.lean ====
/-
  The whole program, from the launch to the return: three host reshapes, then the three layers' kernels back to back.

  The core's unscoped buffers are followed through the program as a fold of contents, one per boundary:
    at launch        every buffer as the launch memory has it;
    after the host   the three bias vectors copied, reshaped to rows, into the rows the kernels read; nothing else moved;
    after layer 1    its output array at what the kernel's write-backs leave (the write-backs of every last contraction
                     tile, folded over the grid); its three input arrays, and every buffer it does not touch, as entered;
    after layer 2    likewise, its input being the first layer's output, which it leaves as it found it;
    after layer 3    likewise; this last output array is the program's result.
  Each layer is entered from exactly the contents the one before left, so its proof data are taken at those contents.
  Around the buffers the thread state carries the generator register at some state and the core owing nothing; a
  layer's kernel takes the register and the scoped buffers it does not stage into its invariant and gives them back
  at its last point with the running total forgotten.

  Read back through the fold, every argument array ends as launched (no host operation and no kernel writes one), and
  the result array holds the third layer's folded write-backs.
-/
import proofs.«147035_j70592082477120_1_alg».proof.Proof.KI.R0
import proofs.«147035_j70592082477120_1_alg».proof.Proof.KI.R1
import proofs.«147035_j70592082477120_1_alg».proof.Proof.KI.R2
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch: the memory the program is started on. -/
abbrev W0 : Dev nD → Valuation τ sig (Elt F) := fun c b => (s₀ m ρ).mem ((c : Dev nD), b)
/-- After the three reshapes: the first layer's kernel is entered from here. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b

/-- After the first layer: its four arrays at what its pipeline leaves, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts that put the first layer's arrays back among the unscoped buffers at its exit: each array holds what
    the pipeline leaves, every other buffer what it held at entry. -/
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second layer, entered from the first layer's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the third layer, entered from the second layer's exit: the contents the program returns with. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem left2 (c : Dev nD) (w : Fin cfg2.W) : (dat2 (V3 m ρ) c).arrAt w cfg2.N = V4 m ρ c (Pipeline.arrRef spec2 w) :=
  (W4_arr m ρ c w).symm
theorem kept2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## Reading the fold back -/

/-- The host stretch writes the three reshaped rows and nothing else. -/
theorem hostOps0_writes : (hostOps0 : List (HloOp τ sig (Elt F))).Forall fun op =>
    op.writes ⊆ (([main_v0, main_v1, main_v2] : List (Ref sig .tc)).map (Proc.devRef (τ := τ) .tc)).toFinset := by
  refine ⟨?_, ?_, ?_⟩ <;>
    exact Finset.singleton_subset_iff.mpr (List.mem_toFinset.mpr (List.mem_map_of_mem (by decide)))
/-- So any other buffer is after it what the launch memory holds. -/
theorem W1_unwritten (c : Dev nD) (b : Ref sig .tc) (hb : b ∉ ([main_v0, main_v1, main_v2] : List (Ref sig .tc))) :
    W1 m ρ c (Proc.devRef .tc b) = m ((c : Thread nD τ).loc b) :=
  (StableHlo.after_of_writes_sub hostOps0 _ hostOps0_writes hb).trans rfl

/-- An input array of the first layer is at its exit what it was at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-! ### What each layer is entered with -/

/-- The first layer's activations and weights are the launch memory's. -/
theorem V1_main_arg0 (c : Dev nD) : V1 m ρ c main_arg0 = m ((c : Thread nD τ).loc main_arg0) := W1_unwritten m ρ c main_arg0 (by decide)
theorem V1_main_arg1 (c : Dev nD) : V1 m ρ c main_arg1 = m ((c : Thread nD τ).loc main_arg1) := W1_unwritten m ρ c main_arg1 (by decide)

/-- The second layer's activations are the first layer's folded write-backs; -/
theorem V2_main_v3 (c : Dev nD) : V2 m ρ c main_v3 = (dat0 (V1 m ρ) c).arrAt 3 cfg0.N := W2_arr m ρ c 3
/-- its weights are the launch memory's and its bias row the host stretch's, the first layer touching neither. -/
theorem V2_main_arg3 (c : Dev nD) : V2 m ρ c main_arg3 = m ((c : Thread nD τ).loc main_arg3) :=
  (W2_of_ne m ρ c main_arg3 (by decide)).trans (W1_unwritten m ρ c main_arg3 (by decide))
theorem V2_main_v1 (c : Dev nD) : V2 m ρ c main_v1 = V1 m ρ c main_v1 := W2_of_ne m ρ c main_v1 (by decide)

/-- The third layer's activations are the second layer's folded write-backs; -/
theorem V3_main_v4 (c : Dev nD) : V3 m ρ c main_v4 = (dat1 (V2 m ρ) c).arrAt 3 cfg1.N := W3_arr m ρ c 3
/-- its weights are the launch memory's and its bias row the host stretch's, neither earlier layer touching them. -/
theorem V3_main_arg5 (c : Dev nD) : V3 m ρ c main_arg5 = m ((c : Thread nD τ).loc main_arg5) :=
  (W3_of_ne m ρ c main_arg5 (by decide)).trans ((W2_of_ne m ρ c main_arg5 (by decide)).trans (W1_unwritten m ρ c main_arg5 (by decide)))
theorem V3_main_v2 (c : Dev nD) : V3 m ρ c main_v2 = V1 m ρ c main_v2 :=
  (W3_of_ne m ρ c main_v2 (by decide)).trans (W2_of_ne m ρ c main_v2 (by decide))

/-! ### What the program returns with -/

/-- The result array holds the third layer's folded write-backs. -/
theorem W4_result (c : Dev nD) : W4 m ρ c (Proc.devRef .tc main_v5) = (dat2 (V3 m ρ) c).arrAt 3 cfg2.N := W4_arr m ρ c 3

/-- Every argument array ends as launched. The first layer reads arguments 0 and 1 through input windows, the second
    argument 3, the third argument 5; arguments 2, 4 and 6 are read by the host reshapes only. -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    (W2_in m ρ c 0 rfl).trans (W1_unwritten m ρ c main_arg0 (by decide))
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <|
    (W2_in m ρ c 1 rfl).trans (W1_unwritten m ρ c main_arg1 (by decide))
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_of_ne m ρ c main_arg2 (by decide)).trans (W1_unwritten m ρ c main_arg2 (by decide))
theorem W4_main_arg3 (c : Dev nD) : W4 m ρ c (Proc.devRef .tc main_arg3) = m ((c : Thread nD τ).loc main_arg3) :=
  (W4_of_ne m ρ c main_arg3 (by decide)).trans <| (W3_in m ρ c 1 rfl).trans <|
    (W2_of_ne m ρ c main_arg3 (by decide)).trans (W1_unwritten m ρ c main_arg3 (by decide))
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_of_ne m ρ c main_arg4 (by decide)).trans (W1_unwritten m ρ c main_arg4 (by decide))
theorem W4_main_arg5 (c : Dev nD) : W4 m ρ c (Proc.devRef .tc main_arg5) = m ((c : Thread nD τ).loc main_arg5) :=
  (W4_in m ρ c 1 rfl).trans <| (W3_of_ne m ρ c main_arg5 (by decide)).trans <|
    (W2_of_ne m ρ c main_arg5 (by decide)).trans (W1_unwritten m ρ c main_arg5 (by decide))
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <|
    (W2_of_ne m ρ c main_arg6 (by decide)).trans (W1_unwritten m ρ c main_arg6 (by decide))

/-! ## The proof data and the thread state -/

/-- No kernel has a prefetched table. -/
abbrev adm : (p : Fin 3) → (pcfgs (F := F) p).Adm := fun p => (cfgs p).toPCfg_adm
/-- Each layer's proof data, taken at the contents its kernel is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core waits on another: no pair is given a level. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A line of host operations over the unscoped buffers held at `W`, the rest riding along; it leaves them at the
    line's effect on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reshape allocates nothing. -/
theorem hostOps0_fresh : (hostOps0 : List (HloOp τ sig (Elt F))).Forall fun op => op.fresh = ∅ := by
  simp only [List.Forall]; repeat' constructor
/-- An unscoped reference of the core is among the buffers the thread state holds. -/
theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the program ends in, the owing apart: every unscoped buffer at the last contents, the register at some state. -/
abbrev Tₙ (c : Dev nD) : sProp 𝕄 := iprop(StableHlo.held (c : Thread nD τ) (Pipeline.ucRefs τ sig) (W4 m ρ c) ∗ ∃ r, prngReg c r)

/-! ## The three kernels as segments

Each is entered from the unscoped buffers at one boundary's contents and left at the next. On the way in its four
arrays are taken out of the unscoped buffers (the rest bypasses the kernel) and the register joins the scoped buffers
it does not stage to make the invariant before the first point; on the way out the invariant after the last point
gives both back, and the arrays, at what the pipeline leaves, rejoin the rest. -/

set_option backward.isDefEq.respectTransparency.types false in
/-- The first layer: from the contents after the host stretch to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine BIBase.Entails.trans ?_ (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer: from `W2` to `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer: from `W3` to the last contents `W4`, the owing set apart for the launch to read. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine BIBase.Entails.trans ?_ (hin2 (V3 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The host stretch from the launch contents, then the three kernels in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program is the run of these segments. -/
theorem main_run (c : Dev nD) : main (F := F) c = Pipeline.Seg.run (segs m ρ) := (main_chain c).trans (by chain_rfl)

set_option backward.isDefEq.respectTransparency.types false in
/-- From any memory with zero counters every weakly fair execution of the program on the cores terminates without a
    fault, and in every final state each unscoped buffer of each core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The seven argument arrays read off a final state that holds the last contents. -/
theorem args_kept {s : MemSt nD τ sig (Elt F)} (c : Dev nD)
    (h : ∀ b ∈ Pipeline.ucRefs τ sig, s.mem (((c : Thread nD τ)).1, b) = W4 m ρ c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6) :=
  ⟨(h _ (uc_mem main_arg0 (by decide))).trans (W4_main_arg0 m ρ c),
   (h _ (uc_mem main_arg1 (by decide))).trans (W4_main_arg1 m ρ c),
   (h _ (uc_mem main_arg2 (by decide))).trans (W4_main_arg2 m ρ c),
   (h _ (uc_mem main_arg3 (by decide))).trans (W4_main_arg3 m ρ c),
   (h _ (uc_mem main_arg4 (by decide))).trans (W4_main_arg4 m ρ c),
   (h _ (uc_mem main_arg5 (by decide))).trans (W4_main_arg5 m ρ c),
   (h _ (uc_mem main_arg6 (by decide))).trans (W4_main_arg6 m ρ c)⟩

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m ρ c (h c)) (run_all m ρ)

/-- The program runs, its result array ends holding the third layer's folded write-backs, and its argument arrays
    end as launched. -/
theorem value : θ_run defs (onTc (τ := τ) (main (F := F))) ⟨m, fun _ => 0, ρ⟩ (fun r => ∀ c : Dev nD,
      r.2.mem ((c.tc : Thread nD τ).loc main_v5) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (uc_mem main_v5 (by decide))).trans (W4_result m ρ c), args_kept m ρ c (h c)⟩) (run_all m ρ)

end Cert.KernelIdeal.Hand

end
-- ==== Proof.Val.Spec.lean ====
/-
  A three-layer perceptron at the extended reals.

  One dense layer sends an [M, K] array X, a [K, N] array W and a one-row [1, N] bias B to the [M, N] array whose
  entry (r, q) is  act (∑ₖ X(r, k) · W(k, q) + B(0, q)).  The network composes three of them: the two hidden layers
  clamp below at zero, the last applies nothing.
-/
import Idealize.ShloMosaic.PureOps.Ideal
import Idealize.ShloMosaic.Lib.ValueIdx

noncomputable section

open scoped BigOperators

namespace Cert.MLP

open Idealize.ShloMosaic Idealize.ShloMosaic.ValueIdx

/-- The clamp after a hidden layer: the larger of the value and the zero word's value. -/
def clamp (a : EReal) : EReal := max a (FloatOps.ofBits (F := Ideal) .f32 0x00000000#32)

/-- One dense layer: entry (r, q) is `act (∑ₖ X(r, k) · W(k, q) + B(0, q))`. -/
def dense {M K N : ℕ} (act : EReal → EReal) (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => act ((∑ k : Fin K, X (ix2 (j 0) k) * W (ix2 k (j 1))) + B (ix2 (0 : Fin 1) (j 1)))

/-- A bias vector laid out as one row. -/
def row {N : ℕ} (b : (⟨1, ![N]⟩ : Shape).Idx → EReal) : (⟨2, ![1, N]⟩ : Shape).Idx → EReal := fun i => b (ix1 (i 1))

/-- The network: [4096, 2048] inputs through hidden widths 4096 and 4096 to 1000 outputs. -/
def mlp (x : (⟨2, ![4096, 2048]⟩ : Shape).Idx → EReal) (w1 : (⟨2, ![2048, 4096]⟩ : Shape).Idx → EReal) (b1 : (⟨1, ![4096]⟩ : Shape).Idx → EReal)
    (w2 : (⟨2, ![4096, 4096]⟩ : Shape).Idx → EReal) (b2 : (⟨1, ![4096]⟩ : Shape).Idx → EReal)
    (w3 : (⟨2, ![4096, 1000]⟩ : Shape).Idx → EReal) (b3 : (⟨1, ![1000]⟩ : Shape).Idx → EReal) : (⟨2, ![4096, 1000]⟩ : Shape).Idx → EReal :=
  dense id (dense clamp (dense clamp x w1 (row b1)) w2 (row b2)) w3 (row b3)

end Cert.MLP

end
-- ==== Proof.Val.Ref.lean ====
/-
  The reference program computes the three-layer perceptron of the specification.

  Each stage of the reference is a contraction over the shared axis, a bias vector laid out as one row and spread down
  the rows, and (in the two hidden stages) a clamp below at the zero word. Read at an entry (r, q) that is one dense
  layer of the specification:  act (∑ₖ X(r, k) · W(k, q) + b(q)).  The three stages are identified one at a time, each
  over the one before it, so the reference's last stage is the composite of the three dense layers.
-/
import proofs.«147035_j70592082477120_1_alg».proof.Proof.Gen.ReferenceIdeal.Read
import proofs.«147035_j70592082477120_1_alg».proof.Proof.Val.Spec

noncomputable section

open scoped BigOperators

namespace Cert.MLP.Ref

open Idealize.ShloMosaic Idealize.ShloMosaic.ValueIdx Cert.ReferenceIdeal Cert.ReferenceIdeal.Read

/-! ## Where each stage reads its operands

  A contraction's entry (r, q) reads its left operand along row r and its right operand down column q; a bias spread
  down the rows is read at the column alone. -/

/-- First contraction, left operand: entry (r, q), term k reads X at (r, k). -/
theorem left1 (i : S4096x4096.Idx) (k : Fin 2048) : lidx_main_v0 i k = ix2 (i 0) k :=
  funext fun a => Fin.ext (by match a with | ⟨0, _⟩ => rfl | ⟨1, _⟩ => rfl)

/-- First contraction, right operand: entry (r, q), term k reads W at (k, q). -/
theorem right1 (i : S4096x4096.Idx) (k : Fin 2048) : ridx_main_v0 i k = ix2 k (i 1) :=
  funext fun a => Fin.ext (by match a with | ⟨0, _⟩ => rfl | ⟨1, _⟩ => rfl)

/-- First bias: the row spread over the array is read at column q. -/
theorem bias1 (i : S4096x4096.Idx) : idx_main_v1 (idx_main_v2 i) = ix1 (i 1) :=
  funext fun a => Fin.ext (by match a with | ⟨0, _⟩ => rfl)

/-- Second contraction, left operand: entry (r, q), term k reads the first hidden layer at (r, k). -/
theorem left2 (i : S4096x4096.Idx) (k : Fin 4096) : lidx_main_v5 i k = ix2 (i 0) k :=
  funext fun a => Fin.ext (by match a with | ⟨0, _⟩ => rfl | ⟨1, _⟩ => rfl)

/-- Second contraction, right operand: entry (r, q), term k reads W at (k, q). -/
theorem right2 (i : S4096x4096.Idx) (k : Fin 4096) : ridx_main_v5 i k = ix2 k (i 1) :=
  funext fun a => Fin.ext (by match a with | ⟨0, _⟩ => rfl | ⟨1, _⟩ => rfl)

/-- Second bias: the row spread over the array is read at column q. -/
theorem bias2 (i : S4096x4096.Idx) : idx_main_v6 (idx_main_v7 i) = ix1 (i 1) :=
  funext fun a => Fin.ext (by match a with | ⟨0, _⟩ => rfl)

/-- Third contraction, left operand: entry (r, q), term k reads the second hidden layer at (r, k). -/
theorem left3 (i : S4096x1000.Idx) (k : Fin 4096) : lidx_main_v10 i k = ix2 (i 0) k :=
  funext fun a => Fin.ext (by match a with | ⟨0, _⟩ => rfl | ⟨1, _⟩ => rfl)

/-- Third contraction, right operand: entry (r, q), term k reads W at (k, q). -/
theorem right3 (i : S4096x1000.Idx) (k : Fin 4096) : ridx_main_v10 i k = ix2 k (i 1) :=
  funext fun a => Fin.ext (by match a with | ⟨0, _⟩ => rfl | ⟨1, _⟩ => rfl)

/-- Third bias: the row spread over the array is read at column q. -/
theorem bias3 (i : S4096x1000.Idx) : idx_main_v11 (idx_main_v12 i) = ix1 (i 1) :=
  funext fun a => Fin.ext (by match a with | ⟨0, _⟩ => rfl)

/-! ## One layer at a time -/

/-- The first hidden stage is the dense layer of the inputs with the clamp:
    entry (r, q) is  max (∑ₖ x(r, k) · w₁(k, q) + b₁(q)) 0. -/
theorem hidden1 (x0 : (⟨S4096x2048, .f32⟩ : BufTy).Contents (Elt Ideal)) (x1 : (⟨S2048x4096, .f32⟩ : BufTy).Contents (Elt Ideal))
    (x2 : (⟨S4096, .f32⟩ : BufTy).Contents (Elt Ideal)) :
    val_main_v4 (F := Ideal) x0 x1 x2 = dense (M := 4096) (K := 2048) (N := 4096) clamp x0 x1 (row x2) := by
  funext i
  rw [val_main_v4_apply, val_main_v3_apply, val_main_v0_apply, val_main_v2_apply, val_main_v1_apply,
    val_main_call0_v0_apply, val_main_call0_cst_apply]
  simp only [left1, right1, bias1, Ideal.addf_def, Ideal.maximumf_def]
  rfl

/-- The second hidden stage is the dense layer of the first hidden layer with the clamp:
    entry (r, q) is  max (∑ₖ h₁(r, k) · w₂(k, q) + b₂(q)) 0. -/
theorem hidden2 (x0 : (⟨S4096x2048, .f32⟩ : BufTy).Contents (Elt Ideal)) (x1 : (⟨S2048x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) :
    val_main_v9 (F := Ideal) x0 x1 x2 x3 x4
      = dense (M := 4096) (K := 4096) (N := 4096) clamp (val_main_v4 (F := Ideal) x0 x1 x2) x3 (row x4) := by
  funext i
  rw [val_main_v9_apply, val_main_v8_apply, val_main_v5_apply, val_main_v7_apply, val_main_v6_apply,
    val_main_call1_v0_apply, val_main_call1_cst_apply]
  simp only [left2, right2, bias2, Ideal.addf_def, Ideal.maximumf_def]
  rfl

/-- The last stage is the dense layer of the second hidden layer with no clamp:
    entry (r, q) is  ∑ₖ h₂(r, k) · w₃(k, q) + b₃(q). -/
theorem output (x0 : (⟨S4096x2048, .f32⟩ : BufTy).Contents (Elt Ideal)) (x1 : (⟨S2048x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S4096x1000, .f32⟩ : BufTy).Contents (Elt Ideal))
    (x6 : (⟨S1000, .f32⟩ : BufTy).Contents (Elt Ideal)) :
    val_main_v13 (F := Ideal) x0 x1 x2 x3 x4 x5 x6
      = dense (M := 4096) (K := 4096) (N := 1000) id (val_main_v9 (F := Ideal) x0 x1 x2 x3 x4) x5 (row x6) := by
  funext i
  rw [val_main_v13_apply, val_main_v10_apply, val_main_v12_apply, val_main_v11_apply]
  simp only [left3, right3, bias3, Ideal.addf_def]
  rfl

/-! ## The network -/

/-- The reference's result is the three-layer perceptron of its seven arguments. -/
theorem ref_eq
    (x0 : (⟨Cert.ReferenceIdeal.S4096x2048, .f32⟩ : BufTy).Contents (Elt Ideal)) (x1 : (⟨Cert.ReferenceIdeal.S2048x4096, .f32⟩ : BufTy).Contents (Elt Ideal))
    (x2 : (⟨Cert.ReferenceIdeal.S4096, .f32⟩ : BufTy).Contents (Elt Ideal)) (x3 : (⟨Cert.ReferenceIdeal.S4096x4096, .f32⟩ : BufTy).Contents (Elt Ideal))
    (x4 : (⟨Cert.ReferenceIdeal.S4096, .f32⟩ : BufTy).Contents (Elt Ideal)) (x5 : (⟨Cert.ReferenceIdeal.S4096x1000, .f32⟩ : BufTy).Contents (Elt Ideal))
    (x6 : (⟨Cert.ReferenceIdeal.S1000, .f32⟩ : BufTy).Contents (Elt Ideal)) :
    Cert.ReferenceIdeal.Read.val_main_v13 (F := Ideal) x0 x1 x2 x3 x4 x5 x6 = Cert.MLP.mlp x0 x1 x2 x3 x4 x5 x6 := by
  rw [output, hidden2, hidden1]
  rfl

end Cert.MLP.Ref

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibPartialSum.lean ====
/-
  Partial sums along a finite index range.

  For a family f over the positions 0, …, N − 1 with values in a commutative additive monoid, psum f n is the sum of
  f over the positions below n; a position at or beyond N counts as zero, so psum f n is defined for every n. Three
  facts: the empty partial sum is zero; the partial sum up to n + b is the partial sum up to n plus the block of b
  terms f(n), …, f(n + b − 1), when that block lies inside the range; and the partial sum up to N is the sum of f over
  all positions. Together they say a sum over the whole range can be reached by adding it block by block.
-/
import Mathlib.Algebra.BigOperators.Fin
import Mathlib.Algebra.BigOperators.Group.Finset.Basic

noncomputable section

namespace Cert.PartialSum

variable {M : Type*} [AddCommMonoid M]

/-- The sum of f over the positions below n (positions at or beyond N contribute nothing). -/
def psum {N : ℕ} (f : Fin N → M) (n : ℕ) : M := ∑ q ∈ Finset.range n, if h : q < N then f ⟨q, h⟩ else 0

/-- The sum over no positions is zero. -/
theorem psum_zero {N : ℕ} (f : Fin N → M) : psum f 0 = 0 := by
  unfold psum
  exact Finset.sum_range_zero _

/-- The sum over the positions below n + b is the sum over those below n plus the block f(n), …, f(n + b − 1), when
    n + b ≤ N. -/
theorem psum_add {N : ℕ} (f : Fin N → M) (n b : ℕ) (h : n + b ≤ N) :
    psum f (n + b) = psum f n + ∑ r : Fin b, f ⟨n + r.val, by omega⟩ := by
  unfold psum
  rw [Finset.sum_range_add]
  refine congrArg _ ?_
  rw [Finset.sum_range]
  refine Finset.sum_congr rfl fun r _ => ?_
  exact dif_pos (show n + r.val < N by omega)

/-- The sum over the positions below N is the sum over all of them. -/
theorem psum_full {N : ℕ} (f : Fin N → M) : psum f N = ∑ k : Fin N, f k := by
  unfold psum
  rw [Finset.sum_range]
  exact Finset.sum_congr rfl fun k _ => dif_pos k.isLt

end Cert.PartialSum

end
-- ==== Proof.Val.L0.lean ====
/-
  The value of the first layer's kernel at the extended reals.

  The grid has 8 × 4 × 2 points; point t stands for the row tile t / 8, the column tile (t / 2) % 4 and the contraction
  tile t % 2. At the extended reals every change of float format is the identity and every float operation is exact,
  so at an entry (r, q) of a tile the body's three pieces of arithmetic read: the reset stores 0; the step adds
  ∑ₖ x(r, k) · w(k, q) over the 1024 positions of the contraction tile to the running total; the last step adds the
  bias row's entry (0, q) and takes the larger of the result and zero.

  A tile of an array, read at an entry, is the array at (tile index × tile size + the entry's coordinate) on each
  axis. Hence the running total after point t, at (r, q), is the partial sum over the first (t % 2 + 1) · 1024
  contraction positions of X(row, k) · W(k, col), where row = (t / 8) · 512 + r and col = ((t / 2) % 4) · 1024 + q:
  it starts from the empty sum at the first contraction tile and gains one block of 1024 terms per point. At a last
  contraction tile the partial sum is the whole sum over the 2048 positions, so what that point writes back is the
  tile of the dense layer  max(∑ₖ X(row, k) · W(k, col) + B(0, col), 0). The 32 last points' tiles fill the
  4096 × 4096 output, so the output array ends holding the dense layer of the three arrays. Only commutativity and
  associativity of addition and 0 + a = a are used: no entry has to be finite.
-/
import proofs.«147035_j70592082477120_1_alg».proof.Proof.KI.R0
import proofs.«147035_j70592082477120_1_alg».proof.Proof.Val.Spec
import proofs.«147035_j70592082477120_1_alg».proof.Proof.LibPlainDot
import proofs.«147035_j70592082477120_1_alg».proof.Proof.LibPartialSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Val0

open Cert.KernelIdeal Cert.KernelIdeal.Gen Cert.KernelIdeal.Hand Idealize.ShloMosaic Idealize.ShloMosaic.ValueIdx
open Idealize.ShloMosaic.TcCoe
open Idealize.ShloMosaic.Pipeline (Dat)

/-! ## The body's arithmetic at an entry -/

/-- The reset's value is zero everywhere. -/
theorem pay1_apply (r : Fin 512) (q : Fin 1024) : (k0_pay1 (F := Ideal)) (ix2 r q) = 0 := by
  unfold k0_pay1
  rw [shapeCast_self]
  exact Ideal.ofBits_zero_f32

/-- The product's dimension numbers are the plain ones: rows by contraction, contraction by columns. -/
theorem dot_plain : dot_S512x1024_S1024x1024_S512x1024_1_0_0_1_n_n = DotDims.plain 512 1024 1024 := rfl

/-- One step: the total s gains the 1024 products of row r of x with column q of w. -/
theorem pay2_apply (x : Vec Ideal S512x1024 .f32) (w : Vec Ideal S1024x1024 .f32) (s : Vec Ideal S512x1024 .f32)
    (r : Fin 512) (q : Fin 1024) :
    k0_pay2 x w s (ix2 r q) = s (ix2 r q) + ∑ k : Fin 1024, x (ix2 r k) * w (ix2 k q) := by
  unfold k0_pay2
  rw [shapeCast_self]
  refine (addf_apply _ _ _).trans ?_
  refine congrArg (fun z => s (ix2 r q) + z) ?_
  exact Cert.PlainDot.matmul_zero_apply dot_S512x1024_S1024x1024_S512x1024_1_0_0_1_n_n dot_plain none
    (truncf .bf16 x bitsLt_bf16_f32) (truncf .bf16 w bitsLt_bf16_f32) (ix2 r q)

/-- The closing step: the total plus the bias row's entry of the same column, clamped below at zero. -/
theorem pay3_apply (a : Vec Ideal S512x1024 .f32) (b : Vec Ideal S1x1024 .f32) (r : Fin 512) (q : Fin 1024) :
    k0_pay3 a b (ix2 r q) = Cert.MLP.clamp (a (ix2 r q) + b (ix2 (0 : Fin 1) q)) := by
  unfold k0_pay3
  rw [shapeCast_self]
  show max (a (ix2 r q) + broadcastTo S512x1024 b broadcasts_S1x1024_S512x1024 (ix2 r q)) _ = _
  rw [broadcastTo_apply b broadcasts_S1x1024_S512x1024 (ix2 r q) (ix2 (0 : Fin 1) q) (fun a => by
    match a with
    | ⟨0, _⟩ => rfl
    | ⟨1, _⟩ => rfl)]
  rfl

section
variable (V : (c : Dev nD) → (b : Ref sig .tc) → Buf (Elt Ideal) ((c : Thread nD τ).loc b))

/-! ## The tiles, read at an entry -/

/-- The three arrays the first layer reads, as the region finds them: the activations X, the weights W, the bias
    row B. -/
abbrev X (c : Dev nD) : (⟨2, ![4096, 2048]⟩ : Shape).Idx → EReal := V c main_arg0
abbrev W (c : Dev nD) : (⟨2, ![2048, 4096]⟩ : Shape).Idx → EReal := V c main_arg1
abbrev B (c : Dev nD) : (⟨2, ![1, 4096]⟩ : Shape).Idx → EReal := V c main_v0

/-- The tile indices at point t: the activations' tile is (t / 8, t % 2), the weights' (t % 2, (t / 2) % 4), the bias
    row's (0, (t / 2) % 4), the output's (t / 8, (t / 2) % 4). -/
theorem idx_facts : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The grid has 64 points. -/
theorem tlt (t : Fin cfg0.N) : t.val < 64 := by
  have h := t.isLt
  have hN : cfg0.N = 64 := N_0
  omega

/-- Where entry r, q or k of a tile at point t sits in its array: the row of X and of the output, the column of W,
    of B and of the output, and the contraction position (a column of X, a row of W). -/
def rowAt (t : Fin cfg0.N) (r : Fin 512) : Fin 4096 := ⟨t.val / 8 * 512 + r.val, by have := tlt t; omega⟩
def colAt (t : Fin cfg0.N) (q : Fin 1024) : Fin 4096 := ⟨t.val / 2 % 4 * 1024 + q.val, by omega⟩
def midAt (t : Fin cfg0.N) (k : Fin 1024) : Fin 2048 := ⟨t.val % 2 * 1024 + k.val, by omega⟩

/-- The activations' tile at an entry. -/
theorem xb_apply (c : Dev nD) (t : Fin cfg0.N) (r : Fin 512) (k : Fin 1024) :
    xb0 V c t (ix2 r k) = X V c (ix2 (rowAt t r) (midAt t k)) := by
  obtain ⟨e0, e1, -⟩ := idx_facts t
  unfold xb0 iblk0
  rw [View.read_apply]
  show V c main_arg0 _ = V c main_arg0 _
  refine congrArg (V c main_arg0) ?_
  funext a
  apply Fin.ext
  match a with
  | ⟨0, _⟩ => show win0_0.index t (0 : Fin 2) * 512 + 1 * r.val = t.val / 8 * 512 + r.val; rw [e0]; omega
  | ⟨1, _⟩ => show win0_0.index t (1 : Fin 2) * 1024 + 1 * k.val = t.val % 2 * 1024 + k.val; rw [e1]; omega

/-- The weights' tile at an entry. -/
theorem wb_apply (c : Dev nD) (t : Fin cfg0.N) (k : Fin 1024) (q : Fin 1024) :
    wb0 V c t (ix2 k q) = W V c (ix2 (midAt t k) (colAt t q)) := by
  obtain ⟨-, -, e2, e3, -⟩ := idx_facts t
  unfold wb0 iblk0
  rw [View.read_apply]
  show V c main_arg1 _ = V c main_arg1 _
  refine congrArg (V c main_arg1) ?_
  funext a
  apply Fin.ext
  match a with
  | ⟨0, _⟩ => show win0_1.index t (0 : Fin 2) * 1024 + 1 * k.val = t.val % 2 * 1024 + k.val; rw [e2]; omega
  | ⟨1, _⟩ => show win0_1.index t (1 : Fin 2) * 1024 + 1 * q.val = t.val / 2 % 4 * 1024 + q.val; rw [e3]; omega

/-- The bias row's tile at an entry. -/
theorem bb_apply (c : Dev nD) (t : Fin cfg0.N) (q : Fin 1024) :
    bb0 V c t (ix2 (0 : Fin 1) q) = B V c (ix2 (0 : Fin 1) (colAt t q)) := by
  obtain ⟨-, -, -, -, e4, e5, -⟩ := idx_facts t
  unfold bb0 iblk0
  rw [View.read_apply]
  show V c main_v0 _ = V c main_v0 _
  refine congrArg (V c main_v0) ?_
  funext a
  apply Fin.ext
  match a with
  | ⟨0, _⟩ => show win0_2.index t (0 : Fin 2) * 1 + 1 * 0 = 0; rw [e4]
  | ⟨1, _⟩ => show win0_2.index t (1 : Fin 2) * 1024 + 1 * q.val = t.val / 2 % 4 * 1024 + q.val; rw [e5]; omega

/-! ## The running total is a partial sum -/

/-- The products whose sum over k is entry (i, j) of X · W. -/
def term (c : Dev nD) (i : Fin 4096) (j : Fin 4096) : Fin 2048 → EReal := fun k => X V c (ix2 i k) * W V c (ix2 k j)

open Cert.PartialSum in
/-- The partial sum through contraction tile kb is the one through the tiles before it plus that tile's 1024 terms. -/
theorem psum_step (f : Fin 2048 → EReal) (kb : ℕ) (hkb : kb < 2) :
    psum f ((kb + 1) * 1024) = psum f (kb * 1024) + ∑ k : Fin 1024, f ⟨kb * 1024 + k.val, by omega⟩ := by
  have h := psum_add f (kb * 1024) 1024 (by omega)
  rw [show (kb + 1) * 1024 = kb * 1024 + 1024 by omega]
  exact h

open Cert.PartialSum in
/-- After point n the running total at (r, q) is the partial sum of the products for that entry's row and column of
    the output, through the contraction tile of n. At a first contraction tile it is one block of terms added to the
    zero the reset left, which is the empty partial sum; at a later one the point before has the same row and column
    tiles and the contraction tile before, and the step adds this tile's block to its total. -/
theorem acc_eq (c : Dev nD) : ∀ (n : ℕ) (h : n < cfg0.N) (r : Fin 512) (q : Fin 1024),
    acc0 V c n h (ix2 r q) = psum (term V c (rowAt ⟨n, h⟩ r) (colAt ⟨n, h⟩ q)) ((n % 2 + 1) * 1024) := by
  intro n
  induction n using Nat.strong_induction_on with
  | _ n ih =>
    intro h r q
    have hlt : n < 64 := tlt ⟨n, h⟩
    rw [psum_step _ (n % 2) (by omega)]
    have hsum : ∑ k : Fin 1024, xb0 V c ⟨n, h⟩ (ix2 r k) * wb0 V c ⟨n, h⟩ (ix2 k q)
        = ∑ k : Fin 1024, term V c (rowAt ⟨n, h⟩ r) (colAt ⟨n, h⟩ q) ⟨n % 2 * 1024 + k.val, by omega⟩ := by
      refine Finset.sum_congr rfl fun k _ => ?_
      rw [xb_apply V c ⟨n, h⟩ r k, wb_apply V c ⟨n, h⟩ k q]
      rfl
    by_cases hz : n % 2 = 0
    · refine (congrFun (acc0_first V c ⟨n, h⟩ hz) (ix2 r q)).trans ?_
      refine (pay2_apply (xb0 V c ⟨n, h⟩) (wb0 V c ⟨n, h⟩) (k0_pay1 (F := Ideal)) r q).trans ?_
      refine congrArg₂ (· + ·) ?_ hsum
      exact (pay1_apply r q).trans ((psum_zero _).symm.trans (congrArg (psum _) (by omega)))
    · have h' : n - 1 < cfg0.N := by omega
      refine (congrFun (acc0_next V c ⟨n, h⟩ hz) (ix2 r q)).trans ?_
      refine (pay2_apply (xb0 V c ⟨n, h⟩) (wb0 V c ⟨n, h⟩) (acc0 V c (n - 1) h') r q).trans ?_
      refine congrArg₂ (· + ·) ?_ hsum
      have e1 : rowAt ⟨n - 1, h'⟩ r = rowAt ⟨n, h⟩ r := Fin.ext (by show (n - 1) / 8 * 512 + r.val = n / 8 * 512 + r.val; omega)
      have e2 : colAt ⟨n - 1, h'⟩ q = colAt ⟨n, h⟩ q := Fin.ext (by show (n - 1) / 2 % 4 * 1024 + q.val = n / 2 % 4 * 1024 + q.val; omega)
      have e3 : ((n - 1) % 2 + 1) * 1024 = n % 2 * 1024 := by omega
      exact (ih (n - 1) (by omega) h' r q).trans (by rw [e1, e2, e3])

/-! ## What a last point writes back -/

/-- The first layer's result as one function of the three arrays. -/
abbrev G (c : Dev nD) : (⟨2, ![4096, 4096]⟩ : Shape).Idx → EReal := Cert.MLP.dense Cert.MLP.clamp (X V c) (W V c) (B V c)

open Cert.PartialSum in
/-- At a last contraction tile the partial sum is the whole sum, so the closing step leaves the dense layer's entry. -/
theorem out_apply (c : Dev nD) (t : Fin cfg0.N) (h1 : t.val % 2 = 1) (r : Fin 512) (q : Fin 1024) :
    k0_pay3 (acc0 V c t.val t.isLt) (bb0 V c t) (ix2 r q) = G V c (ix2 (rowAt t r) (colAt t q)) := by
  refine (pay3_apply (acc0 V c t.val t.isLt) (bb0 V c t) r q).trans ?_
  rw [acc_eq V c t.val t.isLt r q, bb_apply V c t q, show (t.val % 2 + 1) * 1024 = 2048 by omega, psum_full]
  rfl

/-- Where entry (r, q) of the output's tile at point t sits in the output array. -/
theorem emb3 (t : Fin cfg0.N) (r : Fin 512) (q : Fin 1024) :
    ((cfg0.win 3).blk t).view.emb (ix2 r q) = ix2 (rowAt t r) (colAt t q) := by
  obtain ⟨-, -, -, -, -, -, e6, e7⟩ := idx_facts t
  funext a
  apply Fin.ext
  match a with
  | ⟨0, _⟩ => show win0_3.index t (0 : Fin 2) * 512 + 1 * r.val = t.val / 8 * 512 + r.val; rw [e6]; omega
  | ⟨1, _⟩ => show win0_3.index t (1 : Fin 2) * 1024 + 1 * q.val = t.val / 2 % 4 * 1024 + q.val; rw [e7]; omega

/-- A last point writes back its tile of the dense layer. -/
theorem flushed_eq (c : Dev nD) (t : Fin cfg0.N) (hf : (cfg0.win 3).flush t = true) :
    (dat0 (F := Ideal) V c).flushed 3 t = ((cfg0.win 3).blk t).view.read (Elt Ideal) (G V c) := by
  have h1 : t.val % 2 = 1 := (flush0_3 t).mp hf
  show (cfg0.win 3).cut (grid0.coords t) ((dat0 (F := Ideal) V c).after 3 t) = _
  rw [after0_3]
  funext j
  obtain ⟨r, q, rfl⟩ : ∃ (r : Fin 512) (q : Fin 1024), j = ix2 r q := ⟨j 0, j 1, eq_ix2 j⟩
  rw [View.read_apply, emb3 t r q]
  exact out_apply V c t h1 r q

/-! ## Every entry of the output lies in the tile of a last point -/

/-- An entry is in point t's output tile when each coordinate is within the tile's range on its axis. -/
theorem mem_blk (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- Entry (i₀, i₁) lies in the tile of the last point of row tile i₀ / 512 and column tile i₁ / 1024. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  have ht : ((i 0).val / 512 * 4 + (i 1).val / 1024) * 2 + 1 < cfg0.N := by omega
  refine ⟨⟨((i 0).val / 512 * 4 + (i 1).val / 1024) * 2 + 1, ht⟩, (flush0_3 _).mpr (by show (((i 0).val / 512 * 4 + (i 1).val / 1024) * 2 + 1) % 2 = 1; omega), ?_⟩
  rw [mem_blk]
  obtain ⟨-, -, -, -, -, -, e6, e7⟩ := idx_facts ⟨((i 0).val / 512 * 4 + (i 1).val / 1024) * 2 + 1, ht⟩
  intro a
  match a with
  | ⟨0, _⟩ =>
    show win0_3.index _ (0 : Fin 2) * 512 ≤ (i 0).val ∧ (i 0).val < win0_3.index _ (0 : Fin 2) * 512 + 512
    rw [e6]
    show (((i 0).val / 512 * 4 + (i 1).val / 1024) * 2 + 1) / 8 * 512 ≤ (i 0).val ∧ (i 0).val < (((i 0).val / 512 * 4 + (i 1).val / 1024) * 2 + 1) / 8 * 512 + 512
    omega
  | ⟨1, _⟩ =>
    show win0_3.index _ (1 : Fin 2) * 1024 ≤ (i 1).val ∧ (i 1).val < win0_3.index _ (1 : Fin 2) * 1024 + 1024
    rw [e7]
    show (((i 0).val / 512 * 4 + (i 1).val / 1024) * 2 + 1) / 2 % 4 * 1024 ≤ (i 1).val ∧ (i 1).val < (((i 0).val / 512 * 4 + (i 1).val / 1024) * 2 + 1) / 2 % 4 * 1024 + 1024
    omega

end

/-- The first layer's output array after the region: the dense layer of the three arrays, clamped below at zero. -/
theorem layer0 (V : (c : Dev nD) → (b : Ref sig .tc) → Buf (Elt Ideal) ((c : Thread nD τ).loc b)) (c : Dev nD) :
    (dat0 (F := Ideal) V c).arrAt 3 cfg0.N = Cert.MLP.dense Cert.MLP.clamp (V c main_arg0) (V c main_arg1) (V c main_v0) :=
  (dat0 (F := Ideal) V c).arrAt_eq_of_cover 3 (G V c) (flushed_eq V c) cover

end Cert.KernelIdeal.Val0

end
-- ==== Proof.Val.L1.lean ====
/-
  The value of the second layer's kernel region at the extended reals.

  The region walks a grid of 8 row tiles by 4 column tiles by 4 contraction tiles; point t = (bi·4 + bj)·4 + kb sees the
  [512, 1024] tile of the activations at block (bi, kb), the [1024, 1024] tile of the weights at block (kb, bj) and the
  [1, 1024] tile of the bias row at block (0, bj). Along a run of four contraction tiles the scratch holds a running
  total: it starts from zero, every tile adds its 1024 terms of the product, and at the last tile the total plus the
  bias, clamped below at zero, is written to the output tile at block (bi, bj).

  Read at an entry (r, q) of a tile, the running total after contraction tile kb is the partial sum, over the first
  (kb + 1)·1024 positions k, of X(bi·512 + r, k) · W(k, bj·1024 + q): by induction along the run, each step splitting one
  block of 1024 terms off the partial sum. Addition on the extended reals is commutative and associative and zero is
  neutral, so no finiteness is asked anywhere. After the last tile the partial sum is the whole contraction, so the tile
  written is the dense layer read at the tile's place in the array; the tiles written at the last contraction tiles
  cover the output array, which therefore ends holding the dense layer of the three arrays the region found.
-/
import proofs.«147035_j70592082477120_1_alg».proof.Proof.KI.R1
import proofs.«147035_j70592082477120_1_alg».proof.Proof.Val.Spec
import proofs.«147035_j70592082477120_1_alg».proof.Proof.LibPlainDot
import proofs.«147035_j70592082477120_1_alg».proof.Proof.LibPartialSum
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Val1

open Cert.KernelIdeal Cert.KernelIdeal.Gen Cert.KernelIdeal.Hand
open Idealize.ShloMosaic Idealize.ShloMosaic.TcCoe Idealize.ShloMosaic.ValueIdx

/-! ## The body's arithmetic at an entry

On the extended reals every format change is the identity and a shape cast to the same shape changes nothing, so each
of the three stored values reads, at entry (r, q), as plain arithmetic on the entries of what it was computed from. -/

/-- The product's dimension numbers are the plain ones: rows by contraction, contraction by columns. -/
theorem dot_plain : dot_S512x1024_S1024x1024_S512x1024_1_0_0_1_n_n = DotDims.plain 512 1024 1024 := rfl

/-- The reset value is zero at every entry. -/
theorem pay1_apply (r : Fin 512) (q : Fin 1024) : (k1_pay1 (F := Ideal)) (ix2 r q) = 0 := by
  unfold k1_pay1
  rw [shapeCast_self]
  exact Ideal.ofBits_zero_f32

/-- One step of the running total: the total s before, plus the tile's 1024 terms x(r, k) · w(k, q). -/
theorem pay2_apply (x : Vec Ideal S512x1024 .bf16) (w : Vec Ideal S1024x1024 .f32) (s : Vec Ideal S512x1024 .f32)
    (r : Fin 512) (q : Fin 1024) :
    k1_pay2 x w s (ix2 r q) = s (ix2 r q) + ∑ k : Fin 1024, x (ix2 r k) * w (ix2 k q) := by
  unfold k1_pay2
  rw [shapeCast_self, shapeCast_self]
  refine (addf_apply _ _ _).trans ?_
  refine congrArg (s (ix2 r q) + ·) ?_
  exact Cert.PlainDot.matmul_zero_apply _ dot_plain none _ _ (ix2 r q)

/-- The value written to the output: the total plus the bias of column q, clamped below at zero. -/
theorem pay3_apply (a : Vec Ideal S512x1024 .f32) (b : Vec Ideal S1x1024 .f32) (r : Fin 512) (q : Fin 1024) :
    k1_pay3 a b (ix2 r q) = Cert.MLP.clamp (a (ix2 r q) + b (ix2 (0 : Fin 1) q)) := by
  unfold k1_pay3
  rw [shapeCast_self]
  refine (truncf_apply (ψ := .bf16) _ bitsLt_bf16_f32 (ix2 r q)).trans ?_
  refine (maximumf_apply _ _ _).trans ?_
  unfold Cert.MLP.clamp
  refine congrArg₂ max ?_ rfl
  refine (addf_apply _ _ _).trans ?_
  refine congrArg (a (ix2 r q) + ·) ?_
  exact broadcastTo_apply b _ (ix2 r q) (ix2 (0 : Fin 1) q) (fun d => match d with | ⟨0, _⟩ => rfl | ⟨1, _⟩ => rfl)

/-! ## The three arrays, and where a tile's entry sits in them -/

variable (V : (c : Dev nD) → (b : Ref sig .tc) → Buf (Elt Ideal) ((c : Thread nD τ).loc b)) (c : Dev nD)

/-- The activations, the weights and the bias row as the region finds them. -/
abbrev X : (⟨2, ![4096, 4096]⟩ : Shape).Idx → EReal := V c main_v3
abbrev W : (⟨2, ![4096, 4096]⟩ : Shape).Idx → EReal := V c main_arg3
abbrev B : (⟨2, ![1, 4096]⟩ : Shape).Idx → EReal := V c main_v1

/-- The grid has 128 points. -/
theorem lt128 {n : ℕ} (h : n < cfg1.N) : n < 128 := Nat.lt_of_lt_of_eq h N_1

/-- The block indices at point t, in closed form: the row tile is t / 16, the column tile (t / 4) % 4, the
    contraction tile t % 4. -/
theorem idx_facts : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Row r of the row tile of point n, as a row of the arrays. -/
def rowOf (n : ℕ) (hn : n < 128) (r : Fin 512) : Fin 4096 := ⟨n / 16 * 512 + r.val, by have := r.isLt; omega⟩
/-- Column q of the column tile of point n, as a column of the arrays. -/
def colOf (n : ℕ) (hn : n < 128) (q : Fin 1024) : Fin 4096 := ⟨n / 4 % 4 * 1024 + q.val, by have := q.isLt; omega⟩
/-- Position k of the contraction tile of point n, as a position of the whole contraction. -/
def conOf (n : ℕ) (k : Fin 1024) : Fin 4096 := ⟨n % 4 * 1024 + k.val, by have := k.isLt; omega⟩

/-- The activations' tile at point t, at (r, k), is X at (row of r, position of k). -/
theorem xb1_apply (t : Fin cfg1.N) (r : Fin 512) (k : Fin 1024) :
    xb1 V c t (ix2 r k) = X V c (ix2 (rowOf t.val (lt128 t.isLt) r) (conOf t.val k)) := by
  obtain ⟨e0, e1, -⟩ := idx_facts t
  show iblk1 V c 0 t (ix2 r k) = _
  unfold iblk1
  rw [View.read_apply]
  show V c main_v3 _ = V c main_v3 _
  refine congrArg (V c main_v3) ?_
  funext a; apply Fin.ext
  match a with
  | ⟨0, _⟩ => show win1_0.index t (0 : Fin 2) * 512 + 1 * r.val = t.val / 16 * 512 + r.val; rw [e0]; omega
  | ⟨1, _⟩ => show win1_0.index t (1 : Fin 2) * 1024 + 1 * k.val = t.val % 4 * 1024 + k.val; rw [e1]; omega

/-- The weights' tile at point t, at (k, q), is W at (position of k, column of q). -/
theorem wb1_apply (t : Fin cfg1.N) (k : Fin 1024) (q : Fin 1024) :
    wb1 V c t (ix2 k q) = W V c (ix2 (conOf t.val k) (colOf t.val (lt128 t.isLt) q)) := by
  obtain ⟨-, -, e0, e1, -⟩ := idx_facts t
  show iblk1 V c 1 t (ix2 k q) = _
  unfold iblk1
  rw [View.read_apply]
  show V c main_arg3 _ = V c main_arg3 _
  refine congrArg (V c main_arg3) ?_
  funext a; apply Fin.ext
  match a with
  | ⟨0, _⟩ => show win1_1.index t (0 : Fin 2) * 1024 + 1 * k.val = t.val % 4 * 1024 + k.val; rw [e0]; omega
  | ⟨1, _⟩ => show win1_1.index t (1 : Fin 2) * 1024 + 1 * q.val = t.val / 4 % 4 * 1024 + q.val; rw [e1]; omega

/-- The bias row's tile at point t, at (0, q), is B at (0, column of q). -/
theorem bb1_apply (t : Fin cfg1.N) (q : Fin 1024) :
    bb1 V c t (ix2 (0 : Fin 1) q) = B V c (ix2 (0 : Fin 1) (colOf t.val (lt128 t.isLt) q)) := by
  obtain ⟨-, -, -, -, e0, e1, -⟩ := idx_facts t
  show iblk1 V c 2 t (ix2 (0 : Fin 1) q) = _
  unfold iblk1
  rw [View.read_apply]
  show V c main_v1 _ = V c main_v1 _
  refine congrArg (V c main_v1) ?_
  funext a; apply Fin.ext
  match a with
  | ⟨0, _⟩ => show win1_2.index t (0 : Fin 2) * 1 + 1 * 0 = 0; rw [e0]
  | ⟨1, _⟩ => show win1_2.index t (1 : Fin 2) * 1024 + 1 * q.val = t.val / 4 % 4 * 1024 + q.val; rw [e1]; omega

/-! ## The running total along a run of contraction tiles -/

/-- The term of the contraction at position k for output entry (i, j): X(i, k) · W(k, j). -/
def term (i j : Fin 4096) : Fin 4096 → EReal := fun k => X V c (ix2 i k) * W V c (ix2 k j)

/-- One tile's share of the contraction, in the arrays' own coordinates. -/
theorem tile_sum (t : Fin cfg1.N) (r : Fin 512) (q : Fin 1024) :
    ∑ k : Fin 1024, xb1 V c t (ix2 r k) * wb1 V c t (ix2 k q)
      = ∑ k : Fin 1024, term V c (rowOf t.val (lt128 t.isLt) r) (colOf t.val (lt128 t.isLt) q)
          ⟨t.val % 4 * 1024 + k.val, by have := k.isLt; omega⟩ :=
  Finset.sum_congr rfl fun k _ => congrArg₂ (· * ·) (xb1_apply V c t r k) (wb1_apply V c t k q)

/-- The partial sum through contraction tile n % 4 is the one through the tile before plus that tile's 1024 terms. -/
theorem psum_step (f : Fin 4096 → EReal) (n : ℕ) :
    Cert.PartialSum.psum f ((n % 4 + 1) * 1024)
      = Cert.PartialSum.psum f (n % 4 * 1024) + ∑ k : Fin 1024, f ⟨n % 4 * 1024 + k.val, by have := k.isLt; omega⟩ := by
  have e : (n % 4 + 1) * 1024 = n % 4 * 1024 + 1024 := by omega
  rw [e]
  exact Cert.PartialSum.psum_add f (n % 4 * 1024) 1024 (by omega)

/-- THE INVARIANT: after point n the running total at (r, q) is the partial sum of the contraction for the entry's
    place in the arrays, through contraction tile n % 4. At a first tile the total before is zero, the empty partial
    sum; at a later tile the point before lies in the same row tile and column tile, one contraction tile back. -/
theorem acc1_apply : ∀ (n : ℕ) (h : n < cfg1.N) (r : Fin 512) (q : Fin 1024),
    acc1 V c n h (ix2 r q)
      = Cert.PartialSum.psum (term V c (rowOf n (lt128 h) r) (colOf n (lt128 h) q)) ((n % 4 + 1) * 1024) := by
  intro n
  induction n with
  | zero =>
    intro h r q
    refine (congrFun (acc1_first V c ⟨0, h⟩ rfl) (ix2 r q)).trans ?_
    refine (pay2_apply _ _ _ r q).trans ?_
    rw [pay1_apply, psum_step, tile_sum V c ⟨0, h⟩ r q]
    refine congrArg (· + _) ?_
    exact (Cert.PartialSum.psum_zero _).symm
  | succ n ih =>
    intro h r q
    by_cases h4 : (n + 1) % 4 = 0
    · refine (congrFun (acc1_first V c ⟨n + 1, h⟩ h4) (ix2 r q)).trans ?_
      refine (pay2_apply _ _ _ r q).trans ?_
      rw [pay1_apply, psum_step, tile_sum V c ⟨n + 1, h⟩ r q]
      refine congrArg (· + _) ?_
      have e : (n + 1) % 4 * 1024 = 0 := by omega
      rw [e]
      exact (Cert.PartialSum.psum_zero _).symm
    · refine (congrFun (acc1_next V c ⟨n + 1, h⟩ h4) (ix2 r q)).trans ?_
      refine (pay2_apply _ _ _ r q).trans ?_
      rw [psum_step, tile_sum V c ⟨n + 1, h⟩ r q]
      refine congrArg (· + _) ?_
      refine (ih (Nat.lt_of_succ_lt h) r q).trans ?_
      have e1 : rowOf n (lt128 (Nat.lt_of_succ_lt h)) r = rowOf (n + 1) (lt128 h) r :=
        Fin.ext (by show n / 16 * 512 + r.val = (n + 1) / 16 * 512 + r.val; omega)
      have e2 : colOf n (lt128 (Nat.lt_of_succ_lt h)) q = colOf (n + 1) (lt128 h) q :=
        Fin.ext (by show n / 4 % 4 * 1024 + q.val = (n + 1) / 4 % 4 * 1024 + q.val; omega)
      have e3 : (n % 4 + 1) * 1024 = (n + 1) % 4 * 1024 := by omega
      rw [e1, e2, e3]

/-! ## From the tiles to the array -/

/-- The layer's value: entry (i, j) is the clamp of the whole contraction plus the bias of column j. -/
abbrev G : (⟨2, ![4096, 4096]⟩ : Shape).Idx → EReal := Cert.MLP.dense Cert.MLP.clamp (X V c) (W V c) (B V c)

/-- At a last contraction tile the partial sum is the whole contraction: the tile written to the output is the
    layer's value at the tile's place. -/
theorem out_tile (t : Fin cfg1.N) (h3 : t.val % 4 = 3) (r : Fin 512) (q : Fin 1024) :
    k1_pay3 (acc1 V c t.val t.isLt) (bb1 V c t) (ix2 r q)
      = G V c (ix2 (rowOf t.val (lt128 t.isLt) r) (colOf t.val (lt128 t.isLt) q)) := by
  refine (pay3_apply _ _ r q).trans ?_
  rw [acc1_apply V c t.val t.isLt r q, bb1_apply V c t q]
  have e : (t.val % 4 + 1) * 1024 = 4096 := by omega
  rw [e, Cert.PartialSum.psum_full]
  rfl

/-- What a point that writes its output tile back writes is its block of the layer's value. -/
theorem flushed_eq (t : Fin cfg1.N) (hf : (cfg1.win 3).flush t = true) :
    (dat1 (F := Ideal) V c).flushed 3 t = ((cfg1.win 3).blk t).view.read (Elt Ideal) (G V c) := by
  have h3 : t.val % 4 = 3 := (flush1_3 t).mp hf
  obtain ⟨-, -, -, -, -, -, e0, e1⟩ := idx_facts t
  show (cfg1.win 3).cut (grid1.coords t) ((dat1 V c).after 3 t) = _
  rw [after1_3]
  refine funext (fun (j : S512x1024.Idx) => ?_)
  obtain ⟨r, q, rfl⟩ : ∃ (r : Fin 512) (q : Fin 1024), j = ix2 r q := ⟨j 0, j 1, eq_ix2 j⟩
  show k1_pay3 (acc1 V c t.val t.isLt) (bb1 V c t) (ix2 r q) = G V c (((cfg1.win 3).blk t).view.emb (ix2 r q))
  have hemb : ((cfg1.win 3).blk t).view.emb (ix2 r q)
      = ix2 (rowOf t.val (lt128 t.isLt) r) (colOf t.val (lt128 t.isLt) q) := by
    funext a; apply Fin.ext
    match a with
    | ⟨0, _⟩ => show win1_3.index t (0 : Fin 2) * 512 + 1 * r.val = t.val / 16 * 512 + r.val; rw [e0]; omega
    | ⟨1, _⟩ => show win1_3.index t (1 : Fin 2) * 1024 + 1 * q.val = t.val / 4 % 4 * 1024 + q.val; rw [e1]; omega
  rw [hemb]
  exact out_tile V c t h3 r q

/-- An entry of the output array lies in point t's block iff each coordinate lies in the block's range on its axis. -/
theorem mem_blk (t : Fin cfg1.N) (i : S4096x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v4).slice (win1_3.rect t)).set ↔ _
  rw [View.set_slice_whole, Rect.mem_set_unit]
  exact Iff.rfl

/-- Every entry (i, j) of the output array lies in the block of a point that writes back: the last contraction tile
    of row tile i / 512 and column tile j / 1024. -/
theorem cover (i : S4096x4096.Idx) :
    ∃ t : Fin cfg1.N, (cfg1.win 3).flush t = true ∧ i ∈ ((cfg1.win 3).blk t).view.set := by
  have h0 : (i 0).val < 4096 := idx2_lt0 i
  have h1 : (i 1).val < 4096 := idx2_lt1 i
  have hN : cfg1.N = 128 := N_1
  obtain ⟨t, ht⟩ : ∃ t : Fin cfg1.N, t.val = ((i 0).val / 512 * 4 + (i 1).val / 1024) * 4 + 3 :=
    ⟨⟨((i 0).val / 512 * 4 + (i 1).val / 1024) * 4 + 3, by rw [hN]; omega⟩, rfl⟩
  obtain ⟨-, -, -, -, -, -, e0, e1⟩ := idx_facts t
  refine ⟨t, (flush1_3 t).mpr (by rw [ht]; omega), ?_⟩
  rw [mem_blk]
  intro a
  match a with
  | ⟨0, _⟩ =>
    show win1_3.index t (0 : Fin 2) * 512 ≤ (i 0).val ∧ (i 0).val < win1_3.index t (0 : Fin 2) * 512 + 512
    rw [e0, ht]; omega
  | ⟨1, _⟩ =>
    show win1_3.index t (1 : Fin 2) * 1024 ≤ (i 1).val ∧ (i 1).val < win1_3.index t (1 : Fin 2) * 1024 + 1024
    rw [e1, ht]; omega

/-- THE VALUE OF THE REGION: the output array ends holding the dense layer, clamped below at zero, of the activations,
    the weights and the bias row the region found. -/
theorem layer1 :
    (dat1 (F := Ideal) V c).arrAt 3 cfg1.N
      = Cert.MLP.dense Cert.MLP.clamp (V c main_v3) (V c main_arg3) (V c main_v1) :=
  (dat1 (F := Ideal) V c).arrAt_eq_of_cover 3 (G V c) (fun t hf => flushed_eq V c t hf) (cover)

end Cert.KernelIdeal.Val1

end
-- ==== Proof.Val.L2.lean ====
/-
  The value of the third layer's region at the extended reals.

  The region runs the product-plus-bias kernel over a grid of 8 row tiles by 1 column tile by 4 contraction tiles:
  32 points, point t at row tile t / 4 and contraction tile t % 4. At point t the kernel reads the [512, 1024] tile of
  the activations X at block (t / 4, t % 4), the [1024, 1000] tile of the weights W at block (t % 4, 0) and the bias
  row B. Its scratch carries a running total: zero plus the product of the two tiles at a first contraction tile, the
  total the tile before left plus the product of the two tiles at a later one. At a last contraction tile the total plus
  the bias row is written to block (t / 4, 0) of the [4096, 1000] output.

  At the extended reals every float operation is exact and a change of format is the identity. So entry (r, q) of the
  total after contraction tile kb of row tile bi is the partial sum of X(512·bi + r, k) · W(k, q) over the positions
  k < 1024·(kb + 1): by induction along the contraction tiles, each step adding one block of 1024 terms. After the fourth
  tile the partial sum is the sum over all 4096 positions, and what is written back is the block of the dense layer's
  array  ∑ₖ X(·, k) · W(k, ·) + B(0, ·). The eight blocks written back tile the output array, so the array ends holding
  the dense layer of the arrays the region found, with no clamp.
-/
import proofs.«147035_j70592082477120_1_alg».proof.Proof.KI.R2
import proofs.«147035_j70592082477120_1_alg».proof.Proof.Val.Spec
import proofs.«147035_j70592082477120_1_alg».proof.Proof.LibPlainDot
import proofs.«147035_j70592082477120_1_alg».proof.Proof.LibPartialSum
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

open scoped BigOperators

namespace Cert.KernelIdeal.Val2

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The three arrays the region reads, as the region finds them: the activations X, the weights W, the bias row B. -/
abbrev X2 (c : Dev nD) : (⟨2, ![4096, 4096]⟩ : Shape).Idx → EReal := V c main_v4
abbrev W2 (c : Dev nD) : (⟨2, ![4096, 1000]⟩ : Shape).Idx → EReal := V c main_arg5
abbrev B2 (c : Dev nD) : (⟨2, ![1, 1000]⟩ : Shape).Idx → EReal := V c main_v2

/-! ## The kernel's arithmetic at an entry -/

/-- The reset value is zero everywhere. -/
theorem pay1_apply (r : Fin 512) (q : Fin 1000) : (k2_pay1 (F := Ideal)) (ix2 r q) = 0 := by
  unfold k2_pay1
  rw [shapeCast_self]
  exact Ideal.ofBits_zero_f32

/-- One accumulation step at entry (r, q): the total s(r, q) plus the 1024 products x(r, k) · w(k, q) of the two tiles
    (the casts of shape and of format are the identity; the product into the zero accumulator is the plain sum). -/
theorem pay2_apply (x : Vec Ideal S512x1024 .bf16) (w : Vec Ideal S1024x1000 .f32) (s : Vec Ideal S512x1000 .f32)
    (r : Fin 512) (q : Fin 1000) :
    k2_pay2 x w s (ix2 r q) = s (ix2 r q) + ∑ k : Fin 1024, x (ix2 r k) * w (ix2 k q) := by
  unfold k2_pay2
  rw [shapeCast_self, shapeCast_self]
  refine (addf_apply _ _ _).trans ?_
  refine congrArg (s (ix2 r q) + ·) ?_
  exact Cert.PlainDot.matmul_zero_apply (M := 512) (K := 1024) (N := 1000)
    dot_S512x1024_S1024x1000_S512x1000_1_0_0_1_n_n rfl none x (truncf .bf16 w bitsLt_bf16_f32) (ix2 r q)

/-- The epilogue at entry (r, q): the total a(r, q) plus the bias row's entry b(0, q), the row repeated down the tile. -/
theorem pay3_apply (a : Vec Ideal S512x1000 .f32) (b : Vec Ideal S1x1000 .f32) (r : Fin 512) (q : Fin 1000) :
    k2_pay3 a b (ix2 r q) = a (ix2 r q) + b (ix2 (0 : Fin 1) q) := by
  unfold k2_pay3
  rw [shapeCast_self]
  refine (addf_apply _ _ _).trans ?_
  refine congrArg (a (ix2 r q) + ·) ?_
  refine broadcastTo_apply b broadcasts_S1x1000_S512x1000 (ix2 r q) (ix2 (0 : Fin 1) q) ?_
  intro a
  match a with
  | ⟨0, _⟩ => rfl
  | ⟨1, _⟩ => rfl

/-! ## Where each tile sits in its array -/

/-- The grid has 32 points. -/
theorem N2 : cfg2.N = 32 := by decide +kernel

/-- The block indices at point t, decided over the 32 points: the activations' tile at (t / 4, t % 4), the weights'
    at (t % 4, 0), the bias row's at (0, 0), the output's at (t / 4, 0). -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- Entry (r, k) of the activations' tile at point t is X at row 512·(t / 4) + r, column 1024·(t % 4) + k. -/
theorem xb2_apply (c : Dev nD) (t : Fin cfg2.N) (r : Fin 512) (k : Fin 1024) (r' : Fin 4096) (k' : Fin 4096)
    (hr : r'.val = t.val / 4 * 512 + r.val) (hk : k'.val = t.val % 4 * 1024 + k.val) :
    xb2 V c t (ix2 r k) = X2 V c (ix2 r' k') := by
  obtain ⟨e0, e1, -⟩ := idx_facts2 t
  unfold xb2 iblk2
  rw [View.read_apply]
  show V c main_v4 _ = V c main_v4 _
  refine congrArg (V c main_v4) ?_
  funext a
  apply Fin.ext
  match a with
  | ⟨0, _⟩ => show win2_0.index t (0 : Fin 2) * 512 + 1 * r.val = r'.val; rw [e0, hr]; omega
  | ⟨1, _⟩ => show win2_0.index t (1 : Fin 2) * 1024 + 1 * k.val = k'.val; rw [e1, hk]; omega

/-- Entry (k, q) of the weights' tile at point t is W at row 1024·(t % 4) + k, column q. -/
theorem wb2_apply (c : Dev nD) (t : Fin cfg2.N) (k : Fin 1024) (q : Fin 1000) (k' : Fin 4096)
    (hk : k'.val = t.val % 4 * 1024 + k.val) :
    wb2 V c t (ix2 k q) = W2 V c (ix2 k' q) := by
  obtain ⟨-, -, e0, e1, -⟩ := idx_facts2 t
  unfold wb2 iblk2
  rw [View.read_apply]
  show V c main_arg5 _ = V c main_arg5 _
  refine congrArg (V c main_arg5) ?_
  funext a
  apply Fin.ext
  match a with
  | ⟨0, _⟩ => show win2_1.index t (0 : Fin 2) * 1024 + 1 * k.val = k'.val; rw [e0, hk]; omega
  | ⟨1, _⟩ => show win2_1.index t (1 : Fin 2) * 1000 + 1 * q.val = q.val; rw [e1]; omega

/-- The bias row's tile is the bias row at every point. -/
theorem bb2_apply (c : Dev nD) (t : Fin cfg2.N) (q : Fin 1000) :
    bb2 V c t (ix2 (0 : Fin 1) q) = B2 V c (ix2 (0 : Fin 1) q) := by
  obtain ⟨-, -, -, -, e0, e1, -⟩ := idx_facts2 t
  unfold bb2 iblk2
  rw [View.read_apply]
  show V c main_v2 _ = V c main_v2 _
  refine congrArg (V c main_v2) ?_
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 1000 + 1 * q.val = q.val; rw [e1]; omega

/-! ## The running total is a partial sum -/

/-- The products along row r' of the activations and column q of the weights, one per contraction position. -/
abbrev f2 (c : Dev nD) (r' : Fin 4096) (q : Fin 1000) : Fin 4096 → EReal := fun k => X2 V c (ix2 r' k) * W2 V c (ix2 k q)

/-- One step at point t, at entry (r, q) of the tile, in the arrays' own positions: the total plus the block of 1024
    products that starts at position o = 1024·(t % 4), along row r' = 512·(t / 4) + r. -/
theorem step2 (c : Dev nD) (t : Fin cfg2.N) (s : Vec Ideal S512x1000 .f32) (r : Fin 512) (q : Fin 1000) (r' : Fin 4096)
    (hr : r'.val = t.val / 4 * 512 + r.val) (o : ℕ) (ho : o = t.val % 4 * 1024) (hb : o + 1024 ≤ 4096) :
    k2_pay2 (xb2 V c t) (wb2 V c t) s (ix2 r q)
      = s (ix2 r q) + ∑ k : Fin 1024, f2 V c r' q ⟨o + k.val, by omega⟩ := by
  refine (pay2_apply (xb2 V c t) (wb2 V c t) s r q).trans ?_
  refine congrArg (s (ix2 r q) + ·) ?_
  refine Finset.sum_congr rfl fun k _ => ?_
  rw [xb2_apply V c t r k r' ⟨o + k.val, by omega⟩ hr (by show o + k.val = _; omega),
    wb2_apply V c t k q ⟨o + k.val, by omega⟩ (by show o + k.val = _; omega)]

/-- THE INVARIANT. After point n, entry (r, q) of the running total is the partial sum of the products along row
    r' = 512·(n / 4) + r and column q over the positions below 1024·(n % 4 + 1). By induction on the point: at a first
    contraction tile the total is zero plus the first block of 1024 products; at a later one it is the total of the point
    before, which has the same row tile and one contraction tile less, plus the next block. -/
theorem acc2_apply (c : Dev nD) (n : ℕ) : ∀ (h : n < cfg2.N) (r : Fin 512) (q : Fin 1000) (r' : Fin 4096),
    r'.val = n / 4 * 512 + r.val →
    acc2 V c n h (ix2 r q) = Cert.PartialSum.psum (f2 V c r' q) ((n % 4 + 1) * 1024) := by
  induction n using Nat.strong_induction_on with
  | _ n ih =>
    intro h r q r' hr
    have hN : n < 32 := lt_of_lt_of_eq h N2
    by_cases hm : n % 4 = 0
    · refine (congrFun (acc2_first V c ⟨n, h⟩ hm) (ix2 r q)).trans ?_
      refine (step2 V c ⟨n, h⟩ _ r q r' hr 0 (by show 0 = n % 4 * 1024; omega) (by omega)).trans ?_
      rw [pay1_apply, show (n % 4 + 1) * 1024 = 0 + 1024 by omega, Cert.PartialSum.psum_add _ 0 1024 (by omega),
        Cert.PartialSum.psum_zero]
    · refine (congrFun (acc2_next V c ⟨n, h⟩ hm) (ix2 r q)).trans ?_
      refine (step2 V c ⟨n, h⟩ _ r q r' hr (n % 4 * 1024) rfl (by omega)).trans ?_
      rw [show (n % 4 + 1) * 1024 = n % 4 * 1024 + 1024 by omega, Cert.PartialSum.psum_add _ _ 1024 (by omega)]
      refine congrArg (· + _) ?_
      refine (ih (n - 1) (by omega) _ r q r' (by omega)).trans ?_
      rw [show ((n - 1) % 4 + 1) * 1024 = n % 4 * 1024 by omega]

/-! ## What a last point writes back -/

/-- At a last contraction tile the total is the sum over all 4096 positions; with the bias row added it is the dense
    layer's value at the entry of the array where the tile's entry sits: row 512·(t / 4) + y₀, column y₁. -/
theorem out2_apply (c : Dev nD) (t : Fin cfg2.N) (h3 : t.val % 4 = 3) (y : S512x1000.Idx) (i : S4096x1000.Idx)
    (h0 : (i 0).val = t.val / 4 * 512 + (y 0).val) (h1 : (i 1).val = (y 1).val) :
    k2_pay3 (acc2 V c t.val t.isLt) (bb2 V c t) y = Cert.MLP.dense id (X2 V c) (W2 V c) (B2 V c) i := by
  obtain ⟨r, q, rfl⟩ : ∃ (r : Fin 512) (q : Fin 1000), y = ix2 r q := ⟨y 0, y 1, eq_ix2 y⟩
  obtain ⟨r', q', rfl⟩ : ∃ (r' : Fin 4096) (q' : Fin 1000), i = ix2 r' q' := ⟨i 0, i 1, eq_ix2 i⟩
  have hr : r'.val = t.val / 4 * 512 + r.val := h0
  obtain rfl : q' = q := Fin.ext h1
  refine (pay3_apply _ _ r q').trans ?_
  rw [acc2_apply V c t.val t.isLt r q' r' hr, bb2_apply V c t q',
    show (t.val % 4 + 1) * 1024 = 4096 by omega, Cert.PartialSum.psum_full]
  rfl

/-- What a last point writes back is its block of the dense layer's array. -/
theorem flushed2_eq (c : Dev nD) (t : Fin cfg2.N) (hf : (cfg2.win 3).flush t = true) :
    (dat2 (F := Ideal) V c).flushed 3 t
      = ((cfg2.win 3).blk t).view.read (Elt Ideal) (Cert.MLP.dense id (X2 V c) (W2 V c) (B2 V c)) := by
  have h3 : t.val % 4 = 3 := (flush2_3 t).mp hf
  obtain ⟨-, -, -, -, -, -, e0, e1⟩ := idx_facts2 t
  show (cfg2.win 3).cut (grid2.coords t) ((dat2 (F := Ideal) V c).after 3 t) = _
  rw [after2_3]
  funext j
  show k2_pay3 (acc2 V c t.val t.isLt) (bb2 V c t) ((cfg2.win 3).xinj (grid2.coords t) j)
    = Cert.MLP.dense id (X2 V c) (W2 V c) (B2 V c) (((cfg2.win 3).blk t).view.emb j)
  refine out2_apply V c t h3 _ _ ?_ ?_
  · show win2_3.index t (0 : Fin 2) * 512 + 1 * (j 0).val = t.val / 4 * 512 + (j 0).val
    rw [e0]; omega
  · show win2_3.index t (1 : Fin 2) * 1000 + 1 * (j 1).val = (j 1).val
    rw [e1]; omega

/-! ## The blocks written back tile the output -/

/-- An entry of the output array lies in point t's block iff each coordinate lies in the block's range on its axis. -/
theorem mem_blk2 (t : Fin cfg2.N) (i : S4096x1000.Idx) :
    i ∈ ((cfg2.win 3).blk t).view.set ↔ ∀ a : Fin 2, win2_3.index t a * S512x1000.size a ≤ (i a).val
      ∧ (i a).val < win2_3.index t a * S512x1000.size a + S512x1000.size a := by
  show i ∈ ((View.whole main_v5).slice (win2_3.rect t)).set ↔ _
  rw [View.set_slice_whole, Rect.mem_set_unit]
  exact Iff.rfl

/-- Every entry of the output array lies in the block of a last point: row i₀ in the block of row tile i₀ / 512,
    whose last point is 4·(i₀ / 512) + 3. -/
theorem cover2 (i : S4096x1000.Idx) :
    ∃ t : Fin cfg2.N, (cfg2.win 3).flush t = true ∧ i ∈ ((cfg2.win 3).blk t).view.set := by
  have hi0 : (i 0).val < 4096 := idx2_lt0 i
  have hi1 : (i 1).val < 1000 := idx2_lt1 i
  obtain ⟨t, ht⟩ : ∃ t : Fin cfg2.N, t.val = (i 0).val / 512 * 4 + 3 := ⟨⟨_, by rw [N2]; omega⟩, rfl⟩
  obtain ⟨-, -, -, -, -, -, e0, e1⟩ := idx_facts2 t
  refine ⟨t, (flush2_3 t).mpr (by omega), ?_⟩
  rw [mem_blk2]
  intro a
  match a with
  | ⟨0, _⟩ =>
    show win2_3.index t (0 : Fin 2) * 512 ≤ (i 0).val ∧ (i 0).val < win2_3.index t (0 : Fin 2) * 512 + 512
    rw [e0]; omega
  | ⟨1, _⟩ =>
    show win2_3.index t (1 : Fin 2) * 1000 ≤ (i 1).val ∧ (i 1).val < win2_3.index t (1 : Fin 2) * 1000 + 1000
    rw [e1]; omega

/-! ## The array after the region -/

/-- The third layer's output array after the region is the dense layer of the arrays the region found, with no clamp. -/
theorem layer2 (c : Dev nD) :
    (dat2 (F := Ideal) V c).arrAt 3 cfg2.N = Cert.MLP.dense id (V c main_v4) (V c main_arg5) (V c main_v2) :=
  (dat2 (F := Ideal) V c).arrAt_eq_of_cover 3 (Cert.MLP.dense id (X2 V c) (W2 V c) (B2 V c)) (flushed2_eq V c) cover2

end Cert.KernelIdeal.Val2

end
-- ==== Proof.Val.Rows.lean ====
/-
  The first stretch of the kernel program: three bias vectors laid out as rows.

  Before its first matrix product the program reshapes each bias vector of length N to a [1, N] array. A reshape keeps
  the row-major order of the elements, so the entry (0, q) of the result is the vector's entry q: the result is the
  vector laid out as one row, which is how a dense layer of the specification takes its bias. The three reshapes write
  the three row buffers only; the inputs and the weight arrays are left as they were.
-/
import proofs.«147035_j70592082477120_1_alg».proof.Proof.Gen.KernelIdeal.Launch
import proofs.«147035_j70592082477120_1_alg».proof.Proof.Val.Spec
import Idealize.ShloMosaic.Lib.StableHlo.Run
import Idealize.ShloMosaic.Lib.Pipeline.Value
import Idealize.ShloMosaic.Lib.ValueLayout

noncomputable section

namespace Cert.KernelIdeal.Rows

open Idealize.ShloMosaic Idealize.ShloMosaic.ValueIdx Idealize.ShloMosaic.StableHlo Cert.KernelIdeal Cert.KernelIdeal.Gen

/-! ## A reshape to one row -/

/-- A vector of length N reshaped to [1, N] is the vector laid out as one row: the entry (u, q) of the reshape is the
    vector's entry q, whatever the unit coordinate u. -/
theorem reshape_row {N : ℕ} (b : (⟨1, ![N]⟩ : Shape).Idx → EReal) (h : (⟨1, ![N]⟩ : Shape).ShapeCasts ⟨2, ![1, N]⟩) :
    shapeCast ⟨2, ![1, N]⟩ b h = Cert.MLP.row b := by
  funext i
  obtain ⟨u, q, rfl⟩ : ∃ (u : Fin 1) (q : Fin N), i = ix2 u q := ⟨i 0, i 1, eq_ix2 i⟩
  exact shapeCast_a_1a_apply b h u q

/-! ## The three bias rows -/

/-- After the stretch the first row buffer holds the first bias vector laid out as one row. -/
theorem row_v0 (W : Valuation τ sig (Elt Ideal)) :
    StableHlo.after (hostOps0 (F := Ideal)) W (Proc.devRef .tc main_v0) = Cert.MLP.row (W (Proc.devRef .tc main_arg2)) := by
  show StableHlo.after hostOps0 W (Proc.devRef .tc main_v0) = _
  after_results
  exact reshape_row (W (Proc.devRef .tc main_arg2)) shapeCasts_S4096_S1x4096

/-- After the stretch the second row buffer holds the second bias vector laid out as one row. -/
theorem row_v1 (W : Valuation τ sig (Elt Ideal)) :
    StableHlo.after (hostOps0 (F := Ideal)) W (Proc.devRef .tc main_v1) = Cert.MLP.row (W (Proc.devRef .tc main_arg4)) := by
  show StableHlo.after hostOps0 W (Proc.devRef .tc main_v1) = _
  after_results
  exact reshape_row (W (Proc.devRef .tc main_arg4)) shapeCasts_S4096_S1x4096

/-- After the stretch the third row buffer holds the third bias vector laid out as one row. -/
theorem row_v2 (W : Valuation τ sig (Elt Ideal)) :
    StableHlo.after (hostOps0 (F := Ideal)) W (Proc.devRef .tc main_v2) = Cert.MLP.row (W (Proc.devRef .tc main_arg6)) := by
  show StableHlo.after hostOps0 W (Proc.devRef .tc main_v2) = _
  after_results
  exact reshape_row (W (Proc.devRef .tc main_arg6)) shapeCasts_S1000_S1x1000

/-! ## What the stretch leaves alone

  The three reshapes write the three row buffers and nothing else, so the inputs and the three weight arrays hold after
  the stretch what they held before it, whatever kind of values the buffers hold. -/

/-- The inputs are not written. -/
theorem keep_arg0 {F : FTy → Type} (W : Valuation τ sig (Elt F)) :
    StableHlo.after (hostOps0 (F := F)) W (Proc.devRef .tc main_arg0) = W (Proc.devRef .tc main_arg0) := by
  show StableHlo.after hostOps0 W (Proc.devRef .tc main_arg0) = _
  after_results

/-- The first weight array is not written. -/
theorem keep_arg1 {F : FTy → Type} (W : Valuation τ sig (Elt F)) :
    StableHlo.after (hostOps0 (F := F)) W (Proc.devRef .tc main_arg1) = W (Proc.devRef .tc main_arg1) := by
  show StableHlo.after hostOps0 W (Proc.devRef .tc main_arg1) = _
  after_results

/-- The second weight array is not written. -/
theorem keep_arg3 {F : FTy → Type} (W : Valuation τ sig (Elt F)) :
    StableHlo.after (hostOps0 (F := F)) W (Proc.devRef .tc main_arg3) = W (Proc.devRef .tc main_arg3) := by
  show StableHlo.after hostOps0 W (Proc.devRef .tc main_arg3) = _
  after_results

/-- The third weight array is not written. -/
theorem keep_arg5 {F : FTy → Type} (W : Valuation τ sig (Elt F)) :
    StableHlo.after (hostOps0 (F := F)) W (Proc.devRef .tc main_arg5) = W (Proc.devRef .tc main_arg5) := by
  show StableHlo.after hostOps0 W (Proc.devRef .tc main_arg5) = _
  after_results

end Cert.KernelIdeal.Rows

end
-- ==== Proof.Val.Bridge.lean ====
/-
  The kernel program's result is the network's value.

  The program runs three dense layers one after the other, each as a kernel region, after laying its three bias
  vectors out as rows. Each region ends with its output array holding one dense layer of the three arrays it was entered
  with (the value modules of the three regions); a region's input array is the array the region before it left, its weights
  and bias row are untouched since the launch and since the reshapes; so the last region's output is the three layers
  composed over the launch contents of the seven argument arrays.
-/
import proofs.«147035_j70592082477120_1_alg».proof.Proof.KI.Main
import proofs.«147035_j70592082477120_1_alg».proof.Proof.Val.L0
import proofs.«147035_j70592082477120_1_alg».proof.Proof.Val.L1
import proofs.«147035_j70592082477120_1_alg».proof.Proof.Val.L2
import proofs.«147035_j70592082477120_1_alg».proof.Proof.Val.Rows

noncomputable section

namespace Cert.KernelIdeal.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The first region is entered with the first bias vector laid out as a row. -/
theorem V1_row0 (c : Dev nD) : V1 m ρ c main_v0 = Cert.MLP.row (m ((c : Thread nD τ).loc main_arg2)) :=
  Cert.KernelIdeal.Rows.row_v0 (W0 m ρ c)
theorem V1_row1 (c : Dev nD) : V1 m ρ c main_v1 = Cert.MLP.row (m ((c : Thread nD τ).loc main_arg4)) :=
  Cert.KernelIdeal.Rows.row_v1 (W0 m ρ c)
theorem V1_row2 (c : Dev nD) : V1 m ρ c main_v2 = Cert.MLP.row (m ((c : Thread nD τ).loc main_arg6)) :=
  Cert.KernelIdeal.Rows.row_v2 (W0 m ρ c)

/-- The array the last region leaves is the network's value on the argument arrays. -/
theorem result_eq (c : Dev nD) :
    (dat2 (F := Ideal) (V3 m ρ) c).arrAt 3 cfg2.N
      = Cert.MLP.mlp (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Cert.KernelIdeal.Val2.layer2, V3_main_v4, Cert.KernelIdeal.Val1.layer1, V2_main_v3, Cert.KernelIdeal.Val0.layer0,
    V3_main_arg5, V3_main_v2, V2_main_arg3, V2_main_v1, V1_main_arg0, V1_main_arg1, V1_row0, V1_row1, V1_row2]
  rfl

end Cert.KernelIdeal.Bridge

end
-- ==== Proof.lean ====
/-
  A three-layer perceptron as three tiled matrix-product kernels, against the plain jnp network.

  Each kernel region computes one dense layer  act (X · W + b)  tile by tile: along the contraction axis it keeps a
  running total in a scratch buffer, reset at the first contraction tile and finished (bias row added, the hidden layers
  clamped below at zero) at the last, where the output tile is written back. At the ideal instance a change of float
  format is the identity and the sum over the contraction axis taken tile by tile is the whole sum, so each region leaves
  exactly the dense layer of the arrays it is entered with, and the three regions compose to the network the reference
  spells with three dot products (the specification and the reference's reading, Val/Spec and Val/Ref; the regions'
  values, Val/L0, L1, L2; their composition, Val/Bridge).
  The frames — every execution ends, nothing faults, the seven argument arrays are unchanged — come from the run of the
  whole program: three host reshapes, then the three regions, each region's grid walked with the invariant "the scratch
  holds the running total of the point before" (KI/ for the idealized program, K/ for the word-level one: the same text).
  The ideal pass rewrote nothing, so the idealization conjunct is trivial.
-/
import proofs.«147035_j70592082477120_1_alg».proof.Defs
import proofs.«147035_j70592082477120_1_alg».proof.Proof.Gen.Kernel
import proofs.«147035_j70592082477120_1_alg».proof.Proof.Gen.KernelIdeal
import proofs.«147035_j70592082477120_1_alg».proof.Proof.Gen.ReferenceIdeal
import proofs.«147035_j70592082477120_1_alg».proof.Proof.Gen.Pre_finite_inputs
import proofs.«147035_j70592082477120_1_alg».proof.Proof.Gen.ReferenceIdeal.Run
import proofs.«147035_j70592082477120_1_alg».proof.Proof.Gen.ReferenceIdeal.Read
import proofs.«147035_j70592082477120_1_alg».proof.Proof.K.Main
import proofs.«147035_j70592082477120_1_alg».proof.Proof.KI.Main
import proofs.«147035_j70592082477120_1_alg».proof.Proof.Val.Ref
import proofs.«147035_j70592082477120_1_alg».proof.Proof.Val.Bridge
import Idealize.ShloMosaic.Adequacy
import Idealize.ShloMosaic.Init

noncomputable section

namespace Cert.Proof

open Idealize.ShloMosaic Idealize.SL.Sem

/-- The network's value on core c's argument arrays: what both programs end with. -/
def out (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v5) :=
  Cert.MLP.mlp (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

/-- The word-level program runs and keeps its arguments. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network's value of the argument arrays they agree on. -/
theorem algebraic : Cert.algebraic_KernelIdeal_ReferenceIdeal := by
  intro m ρ m' ρ' _ hagree
  refine ⟨out m, ?_, ?_⟩
  · exact (θ_run Cert.KernelIdeal.defs _ _).mono
      (fun _ h c => ⟨(h c).1.trans (Cert.KernelIdeal.Bridge.result_eq m ρ c), (h c).2⟩)
      (Cert.KernelIdeal.Hand.value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.MLP.Ref.ref_eq, (hagree c).1, (hagree c).2.1, (hagree c).2.2.1,
      (hagree c).2.2.2.1, (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
